-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x32x88 : Shape := ⟨4, ![4, 64, 32, 88]⟩
abbrev S4x60x32x88x3 : Shape := ⟨5, ![4, 60, 32, 88, 3]⟩
abbrev S_ : Shape := ⟨0, ![]⟩

class Facts : Prop where
  bcast_S_S4x64x32x88 : S_.BroadcastsInDim S4x64x32x88 (![] : Fin 0 → Fin S4x64x32x88.rank)
  reducesTo_S4x64x32x88_S_d0_1_2_3 : S4x64x32x88.ReducesTo [0, 1, 2, 3] S_
  h_S_ : 0 < S_.numel

variable [Facts]

def fn {F : FTy → Type} [FloatOps F] (main_arg0 : FVec F S4x64x32x88 .f32) (main_arg1 : IVec S4x60x32x88x3 32) : IVec S_ 1 :=
  let main_v0 : FVec F S4x64x32x88 .f32 := Host.absf main_arg0
  let main_cst : FVec F S_ .f32 := constant S_ .f32 0x7F800000#32
  let main_v1 : FVec F S4x64x32x88 .f32 := broadcastInDim S4x64x32x88 ![] bcast_S_S4x64x32x88 main_cst
  let main_v2 : IVec S4x64x32x88 1 := cmpf .olt main_v0 main_v1
  let main_c : IVec S_ 1 := constantI S_ 1 1#1
  let main_v3 : IVec S_ 1 := (fun x v => Host.reduce IntOp.andi x v reducesTo_S4x64x32x88_S_d0_1_2_3 h_S_) main_v2 main_c
  main_v3
-- ==== Kernel.lean ====
abbrev S4x64x32x88 : Shape := ⟨4, ![4, 64, 32, 88]⟩
abbrev S4x60x32x88x3 : Shape := ⟨5, ![4, 60, 32, 88, 3]⟩
abbrev S4x60x32x88x1 : Shape := ⟨5, ![4, 60, 32, 88, 1]⟩
abbrev S4x60x32x88 : Shape := ⟨4, ![4, 60, 32, 88]⟩
abbrev S_ : Shape := ⟨0, ![]⟩
abbrev S4x64x2816 : Shape := ⟨3, ![4, 64, 2816]⟩
abbrev S4x64x1280 : Shape := ⟨3, ![4, 64, 1280]⟩
abbrev S1x1x32x88 : Shape := ⟨4, ![1, 1, 32, 88]⟩
abbrev S1x64x2816 : Shape := ⟨3, ![1, 64, 2816]⟩
abbrev S1x64x1280 : Shape := ⟨3, ![1, 64, 1280]⟩
abbrev S64x1280 : Shape := ⟨2, ![64, 1280]⟩
abbrev S1x32x88 : Shape := ⟨3, ![1, 32, 88]⟩
abbrev S1x32x88x1280 : Shape := ⟨4, ![1, 32, 88, 1280]⟩
abbrev S1x32x88x1 : Shape := ⟨4, ![1, 32, 88, 1]⟩
abbrev S2816x1280 : Shape := ⟨2, ![2816, 1280]⟩
abbrev S64x2816 : Shape := ⟨2, ![64, 2816]⟩
abbrev S4x64x10x128 : Shape := ⟨4, ![4, 64, 10, 128]⟩

abbrev nBuf : Space → Nat
  | .hbm => 43
  | .vmem => 6
  | .smem => 0
  | _ => 0

abbrev bufTy : (tb : Table) → Fin (tcTables nBuf tb) → BufTy
  | .hbm, ⟨0, _⟩ => ⟨S4x64x32x88, .f32⟩
  | .hbm, ⟨1, _⟩ => ⟨S4x60x32x88x3, .i32⟩
  | .hbm, ⟨2, _⟩ => ⟨S4x60x32x88x1, .i32⟩
  | .hbm, ⟨3, _⟩ => ⟨S4x60x32x88, .i32⟩
  | .hbm, ⟨4, _⟩ => ⟨S4x60x32x88x1, .i32⟩
  | .hbm, ⟨5, _⟩ => ⟨S4x60x32x88, .i32⟩
  | .hbm, ⟨6, _⟩ => ⟨S4x60x32x88x1, .i32⟩
  | .hbm, ⟨7, _⟩ => ⟨S4x60x32x88, .i32⟩
  | .hbm, ⟨8, _⟩ => ⟨S_, .i32⟩
  | .hbm, ⟨9, _⟩ => ⟨S4x60x32x88, .i32⟩
  | .hbm, ⟨10, _⟩ => ⟨S4x60x32x88, .i1⟩
  | .hbm, ⟨11, _⟩ => ⟨S_, .i32⟩
  | .hbm, ⟨12, _⟩ => ⟨S4x60x32x88, .i32⟩
  | .hbm, ⟨13, _⟩ => ⟨S4x60x32x88, .i1⟩
  | .hbm, ⟨14, _⟩ => ⟨S4x60x32x88, .i1⟩
  | .hbm, ⟨15, _⟩ => ⟨S_, .i32⟩
  | .hbm, ⟨16, _⟩ => ⟨S4x60x32x88, .i32⟩
  | .hbm, ⟨17, _⟩ => ⟨S4x60x32x88, .i1⟩
  | .hbm, ⟨18, _⟩ => ⟨S4x60x32x88, .i1⟩
  | .hbm, ⟨19, _⟩ => ⟨S_, .i32⟩
  | .hbm, ⟨20, _⟩ => ⟨S4x60x32x88, .i32⟩
  | .hbm, ⟨21, _⟩ => ⟨S4x60x32x88, .i1⟩
  | .hbm, ⟨22, _⟩ => ⟨S4x60x32x88, .i1⟩
  | .hbm, ⟨23, _⟩ => ⟨S_, .i32⟩
  | .hbm, ⟨24, _⟩ => ⟨S4x60x32x88, .i32⟩
  | .hbm, ⟨25, _⟩ => ⟨S4x60x32x88, .i1⟩
  | .hbm, ⟨26, _⟩ => ⟨S4x60x32x88, .i1⟩
  | .hbm, ⟨27, _⟩ => ⟨S_, .i32⟩
  | .hbm, ⟨28, _⟩ => ⟨S4x60x32x88, .i32⟩
  | .hbm, ⟨29, _⟩ => ⟨S4x60x32x88, .i1⟩
  | .hbm, ⟨30, _⟩ => ⟨S4x60x32x88, .i1⟩
  | .hbm, ⟨31, _⟩ => ⟨S_, .i32⟩
  | .hbm, ⟨32, _⟩ => ⟨S4x60x32x88, .i32⟩
  | .hbm, ⟨33, _⟩ => ⟨S4x60x32x88, .i32⟩
  | .hbm, ⟨34, _⟩ => ⟨S4x60x32x88, .i32⟩
  | .hbm, ⟨35, _⟩ => ⟨S_, .i32⟩
  | .hbm, ⟨36, _⟩ => ⟨S_, .i32⟩
  | .hbm, ⟨37, _⟩ => ⟨S4x60x32x88, .i32⟩
  | .hbm, ⟨38, _⟩ => ⟨S4x60x32x88, .i32⟩
  | .hbm, ⟨39, _⟩ => ⟨S4x64x2816, .f32⟩
  | .hbm, ⟨40, _⟩ => ⟨S4x64x2816, .bf16⟩
  | .hbm, ⟨41, _⟩ => ⟨S4x64x1280, .f32⟩
  | .hbm, ⟨42, _⟩ => ⟨S4x64x10x128, .f32⟩
  | .local _ .vmem, ⟨0, _⟩ => ⟨S1x1x32x88, .i32⟩
  | .local _ .vmem, ⟨1, _⟩ => ⟨S1x1x32x88, .i32⟩
  | .local _ .vmem, ⟨2, _⟩ => ⟨S1x64x2816, .bf16⟩
  | .local _ .vmem, ⟨3, _⟩ => ⟨S1x64x2816, .bf16⟩
  | .local _ .vmem, ⟨4, _⟩ => ⟨S1x64x1280, .f32⟩
  | .local _ .vmem, ⟨5, _⟩ => ⟨S1x64x1280, .f32⟩
  | _, _ => ⟨S4x64x32x88, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_call0_v0 : Ref sig .tc := ⟨.hbm, 36, rfl⟩
abbrev main_call0_v1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 60], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x32x88 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S4x60x32x88x3_S4x60x32x88x1_0_0_0_0_0 : S4x60x32x88x3.Slices ![0, 0, 0, 0, 0] S4x60x32x88x1
  shapeCasts_S4x60x32x88x1_S4x60x32x88 : S4x60x32x88x1.ShapeCasts S4x60x32x88
  slices_S4x60x32x88x3_S4x60x32x88x1_0_0_0_0_1 : S4x60x32x88x3.Slices ![0, 0, 0, 0, 1] S4x60x32x88x1
  slices_S4x60x32x88x3_S4x60x32x88x1_0_0_0_0_2 : S4x60x32x88x3.Slices ![0, 0, 0, 0, 2] S4x60x32x88x1
  bcast_S_S4x60x32x88 : S_.BroadcastsInDim S4x60x32x88 (![] : Fin 0 → Fin S4x60x32x88.rank)
  shapeCasts_S4x64x32x88_S4x64x2816 : S4x64x32x88.ShapeCasts S4x64x2816
  bitsLt_bf16_f32 : FTy.bits .bf16 < FTy.bits .f32
  inb_S1x64x1280_S1x64x1280_0_0_0 : ∀ a, (![0, 0, 0] : Fin 3 → Nat) a + S1x64x1280.size a ≤ S1x64x1280.size a
  h_S1x64x1280 : 0 < S1x64x1280.numel
  shapeCasts_S1x64x1280_S64x1280 : S1x64x1280.ShapeCasts S64x1280
  shapeCasts_S64x1280_S1x64x1280 : S64x1280.ShapeCasts S1x64x1280
  inb_S1x1x32x88_S1x1x32x88_0_0_0_0 : ∀ a, (![0, 0, 0, 0] : Fin 4 → Nat) a + S1x1x32x88.size a ≤ S1x1x32x88.size a
  h_S1x1x32x88 : 0 < S1x1x32x88.numel
  shapeCasts_S1x1x32x88_S1x32x88 : S1x1x32x88.ShapeCasts S1x32x88
  iota_S1x32x88x1280_d3_w32 : S1x32x88x1280.Iotas .tc 32 [3]
  shapeCasts_S1x32x88_S1x32x88x1 : S1x32x88.ShapeCasts S1x32x88x1
  broadcasts_S1x32x88x1_S1x32x88x1280 : S1x32x88x1.Broadcasts S1x32x88x1280
  natLt_1_32 : 1 < 32
  shapeCasts_S1x32x88x1280_S2816x1280 : S1x32x88x1280.ShapeCasts S2816x1280
  inb_S1x64x2816_S1x64x2816_0_0_0 : ∀ a, (![0, 0, 0] : Fin 3 → Nat) a + S1x64x2816.size a ≤ S1x64x2816.size a
  h_S1x64x2816 : 0 < S1x64x2816.numel
  shapeCasts_S1x64x2816_S64x2816 : S1x64x2816.ShapeCasts S64x2816
  shapeCasts_S4x64x1280_S4x64x10x128 : S4x64x1280.ShapeCasts S4x64x10x128
  dot_S64x2816_S2816x1280_S64x1280_1_0_0_1_n_n_wf : DotDims.WF S64x2816 S2816x1280 S64x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x32x88.size a ≤ S4x60x32x88.size a
  hwx0_0 : ∀ i : grid0.Coords, EltTy.bits .i32 = 32 ∨ (Rect.block (s := S4x60x32x88) S1x1x32x88.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2816.size a ≤ S4x64x2816.size a
  hwx0_1 : ∀ i : grid0.Coords, EltTy.bits .bf16 = 32 ∨ (Rect.block (s := S4x64x2816) S1x64x2816.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1280.size a ≤ S4x64x1280.size a
  hwx0_2 : ∀ i : grid0.Coords, EltTy.bits .f32 = 32 ∨ (Rect.block (s := S4x64x1280) S1x64x1280.size (cc0_transform_2 i) (hinb0_2 i)).WholeWords (EltTy.packing .f32)

variable [Facts₀]

def dot_S64x2816_S2816x1280_S64x1280_1_0_0_1_n_n : DotDims S64x2816 S2816x1280 S64x1280 where
  lhsContracting := [1]
  rhsContracting := [0]
  lhsNonContracting := [0]
  rhsNonContracting := [1]
  lhsBatch := []
  rhsBatch := []
  wf := dot_S64x2816_S2816x1280_S64x1280_1_0_0_1_n_n_wf

abbrev win0_0 : Pipeline.Window sig grid0 :=
  Pipeline.Window.ofSpec (Memref.whole main_v26) S1x1x32x88.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x64x2816.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x64x1280.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x32x88 : Shape := ⟨4, ![4, 64, 32, 88]⟩
abbrev S4x60x32x88x3 : Shape := ⟨5, ![4, 60, 32, 88, 3]⟩
abbrev S4x32x88x64 : Shape := ⟨4, ![4, 32, 88, 64]⟩
abbrev S4x1x32x88x64 : Shape := ⟨5, ![4, 1, 32, 88, 64]⟩
abbrev S4x60x32x88x64 : Shape := ⟨5, ![4, 60, 32, 88, 64]⟩
abbrev S675840x64 : Shape := ⟨2, ![675840, 64]⟩
abbrev S675840x3 : Shape := ⟨2, ![675840, 3]⟩
abbrev S675840x1 : Shape := ⟨2, ![675840, 1]⟩
abbrev S675840 : Shape := ⟨1, ![675840]⟩
abbrev S4 : Shape := ⟨1, ![4]⟩
abbrev S4x168960 : Shape := ⟨2, ![4, 168960]⟩
abbrev S_ : Shape := ⟨0, ![]⟩
abbrev S655361x64 : Shape := ⟨2, ![655361, 64]⟩
abbrev S655360x64 : Shape := ⟨2, ![655360, 64]⟩
abbrev S4x10x128x128x64 : Shape := ⟨5, ![4, 10, 128, 128, 64]⟩
abbrev S4x10x128x64 : Shape := ⟨4, ![4, 10, 128, 64]⟩
abbrev S4x64x10x128 : Shape := ⟨4, ![4, 64, 10, 128]⟩

abbrev nBuf : Space → Nat
  | .hbm => 64
  | .vmem => 0
  | .smem => 0
  | _ => 0

abbrev bufTy : (tb : Table) → Fin (tcTables nBuf tb) → BufTy
  | .hbm, ⟨0, _⟩ => ⟨S4x64x32x88, .f32⟩
  | .hbm, ⟨1, _⟩ => ⟨S4x60x32x88x3, .i32⟩
  | .hbm, ⟨2, _⟩ => ⟨S4x32x88x64, .f32⟩
  | .hbm, ⟨3, _⟩ => ⟨S4x1x32x88x64, .f32⟩
  | .hbm, ⟨4, _⟩ => ⟨S4x60x32x88x64, .f32⟩
  | .hbm, ⟨5, _⟩ => ⟨S675840x64, .f32⟩
  | .hbm, ⟨6, _⟩ => ⟨S675840x3, .i32⟩
  | .hbm, ⟨7, _⟩ => ⟨S675840x1, .i32⟩
  | .hbm, ⟨8, _⟩ => ⟨S675840, .i32⟩
  | .hbm, ⟨9, _⟩ => ⟨S675840x1, .i32⟩
  | .hbm, ⟨10, _⟩ => ⟨S675840, .i32⟩
  | .hbm, ⟨11, _⟩ => ⟨S675840x1, .i32⟩
  | .hbm, ⟨12, _⟩ => ⟨S675840, .i32⟩
  | .hbm, ⟨13, _⟩ => ⟨S4, .i32⟩
  | .hbm, ⟨14, _⟩ => ⟨S4x168960, .i32⟩
  | .hbm, ⟨15, _⟩ => ⟨S675840, .i32⟩
  | .hbm, ⟨16, _⟩ => ⟨S_, .i32⟩
  | .hbm, ⟨17, _⟩ => ⟨S675840, .i32⟩
  | .hbm, ⟨18, _⟩ => ⟨S675840, .i1⟩
  | .hbm, ⟨19, _⟩ => ⟨S_, .i32⟩
  | .hbm, ⟨20, _⟩ => ⟨S675840, .i32⟩
  | .hbm, ⟨21, _⟩ => ⟨S675840, .i1⟩
  | .hbm, ⟨22, _⟩ => ⟨S675840, .i1⟩
  | .hbm, ⟨23, _⟩ => ⟨S_, .i32⟩
  | .hbm, ⟨24, _⟩ => ⟨S675840, .i32⟩
  | .hbm, ⟨25, _⟩ => ⟨S675840, .i1⟩
  | .hbm, ⟨26, _⟩ => ⟨S675840, .i1⟩
  | .hbm, ⟨27, _⟩ => ⟨S_, .i32⟩
  | .hbm, ⟨28, _⟩ => ⟨S675840, .i32⟩
  | .hbm, ⟨29, _⟩ => ⟨S675840, .i1⟩
  | .hbm, ⟨30, _⟩ => ⟨S675840, .i1⟩
  | .hbm, ⟨31, _⟩ => ⟨S_, .i32⟩
  | .hbm, ⟨32, _⟩ => ⟨S675840, .i32⟩
  | .hbm, ⟨33, _⟩ => ⟨S675840, .i1⟩
  | .hbm, ⟨34, _⟩ => ⟨S675840, .i1⟩
  | .hbm, ⟨35, _⟩ => ⟨S_, .i32⟩
  | .hbm, ⟨36, _⟩ => ⟨S675840, .i32⟩
  | .hbm, ⟨37, _⟩ => ⟨S675840, .i1⟩
  | .hbm, ⟨38, _⟩ => ⟨S675840, .i1⟩
  | .hbm, ⟨39, _⟩ => ⟨S_, .i32⟩
  | .hbm, ⟨40, _⟩ => ⟨S675840, .i32⟩
  | .hbm, ⟨41, _⟩ => ⟨S675840, .i32⟩
  | .hbm, ⟨42, _⟩ => ⟨S675840, .i32⟩
  | .hbm, ⟨43, _⟩ => ⟨S_, .i32⟩
  | .hbm, ⟨44, _⟩ => ⟨S675840, .i32⟩
  | .hbm, ⟨45, _⟩ => ⟨S675840, .i32⟩
  | .hbm, ⟨46, _⟩ => ⟨S675840, .i32⟩
  | .hbm, ⟨47, _⟩ => ⟨S_, .i32⟩
  | .hbm, ⟨48, _⟩ => ⟨S675840, .i32⟩
  | .hbm, ⟨49, _⟩ => ⟨S675840, .i32⟩
  | .hbm, ⟨50, _⟩ => ⟨S675840, .i32⟩
  | .hbm, ⟨51, _⟩ => ⟨S_, .i32⟩
  | .hbm, ⟨52, _⟩ => ⟨S_, .i32⟩
  | .hbm, ⟨53, _⟩ => ⟨S675840, .i32⟩
  | .hbm, ⟨54, _⟩ => ⟨S675840, .i32⟩
  | .hbm, ⟨55, _⟩ => ⟨S_, .f32⟩
  | .hbm, ⟨56, _⟩ => ⟨S655361x64, .f32⟩
  | .hbm, ⟨57, _⟩ => ⟨S675840x1, .i32⟩
  | .hbm, ⟨58, _⟩ => ⟨S655361x64, .f32⟩
  | .hbm, ⟨59, _⟩ => ⟨S655360x64, .f32⟩
  | .hbm, ⟨60, _⟩ => ⟨S4x10x128x128x64, .f32⟩
  | .hbm, ⟨61, _⟩ => ⟨S_, .f32⟩
  | .hbm, ⟨62, _⟩ => ⟨S4x10x128x64, .f32⟩
  | .hbm, ⟨63, _⟩ => ⟨S4x64x10x128, .f32⟩
  | _, _ => ⟨S4x64x32x88, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_v14 : Ref sig .tc := ⟨.hbm, 17, rfl⟩
abbrev main_v15 : Ref sig .tc := ⟨.hbm, 18, rfl⟩
abbrev main_c_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_6 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_7 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_8 : Ref sig .tc := ⟨.hbm, 51, rfl⟩
abbrev main_call0_v0 : Ref sig .tc := ⟨.hbm, 52, rfl⟩
abbrev main_call0_v1 : Ref sig .tc := ⟨.hbm, 53, rfl⟩
abbrev main_v40 : Ref sig .tc := ⟨.hbm, 54, rfl⟩
abbrev main_cst : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  transposes_S4x64x32x88_S4x32x88x64_0_2_3_1 : S4x64x32x88.Transposes [0, 2, 3, 1] S4x32x88x64
  bcast_S4x32x88x64_S4x1x32x88x64_0_2_3_4 : S4x32x88x64.BroadcastsInDim S4x1x32x88x64 (![0, 2, 3, 4] : Fin 4 → Fin S4x1x32x88x64.rank)
  bcast_S4x1x32x88x64_S4x60x32x88x64_0_1_2_3_4 : S4x1x32x88x64.BroadcastsInDim S4x60x32x88x64 (![0, 1, 2, 3, 4] : Fin 5 → Fin S4x60x32x88x64.rank)
  shapeCasts_S4x60x32x88x64_S675840x64 : S4x60x32x88x64.ShapeCasts S675840x64
  shapeCasts_S4x60x32x88x3_S675840x3 : S4x60x32x88x3.ShapeCasts S675840x3
  slices_S675840x3_S675840x1_0_0 : S675840x3.Slices ![0, 0] S675840x1
  shapeCasts_S675840x1_S675840 : S675840x1.ShapeCasts S675840
  slices_S675840x3_S675840x1_0_1 : S675840x3.Slices ![0, 1] S675840x1
  slices_S675840x3_S675840x1_0_2 : S675840x3.Slices ![0, 2] S675840x1
  bcast_S4_S4x168960_0 : S4.BroadcastsInDim S4x168960 (![0] : Fin 1 → Fin S4x168960.rank)
  shapeCasts_S4x168960_S675840 : S4x168960.ShapeCasts S675840
  bcast_S_S675840 : S_.BroadcastsInDim S675840 (![] : Fin 0 → Fin S675840.rank)
  bcast_S_S655361x64 : S_.BroadcastsInDim S655361x64 (![] : Fin 0 → Fin S655361x64.rank)
  bcast_S675840_S675840x1_0 : S675840.BroadcastsInDim S675840x1 (![0] : Fin 1 → Fin S675840x1.rank)
  slices_S655361x64_S655360x64_0_0 : S655361x64.Slices ![0, 0] S655360x64
  shapeCasts_S655360x64_S4x10x128x128x64 : S655360x64.ShapeCasts S4x10x128x128x64
  reducesTo_S4x10x128x128x64_S4x10x128x64_d3 : S4x10x128x128x64.ReducesTo [3] S4x10x128x64
  h_S_ : 0 < S_.numel
  transposes_S4x10x128x64_S4x64x10x128_0_3_1_2 : S4x10x128x64.Transposes [0, 3, 1, 2] S4x64x10x128
  scatter_S655361x64_S675840x1_S675840x64_1_0_0_1_wf : ScatterDims.WF S655361x64 S675840x1 S675840x64 [1] [0] [0] 1

variable [Facts₀]

def scatter_S655361x64_S675840x1_S675840x64_1_0_0_1 : ScatterDims S655361x64 S675840x1 S675840x64 where
  updateWindowDims := [1]
  insertedWindowDims := [0]
  scatterDimsToOperandDims := [0]
  indexVectorDim := 1
  wf := scatter_S655361x64_S675840x1_S675840x64_1_0_0_1_wf

class Facts : Prop extends Facts₀ where

variable [Facts]
-- ==== Proof.CaseValues.lean ====
/-
  What one grid point leaves in the output block.  A point that is not the first of its batch element reads the block
  (the running sum), adds its layer's contribution and stores the block whole; the first point of a batch element first
  stores the zero block and then does the same over it.
-/
import proofs.«430443_j69715909149218_3_alg».proof.Proof.Gen.KernelIdeal.Frame
import Idealize.ShloMosaic.Lib.Pipeline.Value
import Idealize.ShloMosaic.Lib.Tactic

noncomputable section

namespace Cert.KernelIdeal.Acc

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later point of a batch element: over the running block `acc`, the block becomes the payload of the one whole
    store, computed from the point's coordinate block, its feature block and `acc`. -/
theorem later_point (c : Dev nD) (i : grid0.Coords) (arg2 : Memref sig .tc .vmem S1x1x32x88 .i32) (harg2 : arg2.IsWhole)
    (arg3 : Memref sig .tc .vmem S1x64x2816 .bf16) (harg3 : arg3.IsWhole) (arg4 : Memref sig .tc .vmem S1x64x1280 .f32)
    (harg4 : arg4.IsWhole) (hc0 : ¬cond0_0 i) (x0 : Vec F S1x1x32x88 .i32) (x1 : Vec F S1x64x2816 .bf16)
    (acc : Vec F S1x64x1280 .f32) :
    out0_B_2 c i arg2 harg2 arg3 harg3 arg4 harg4 hc0 x0 x1 acc = k0_pay2 x0 x1 acc := by
  unfold out0_B_2
  rw [View.read_writes_eq_canon _ _ _ (cover0_B_2 c i arg2 harg2 arg3 harg3 arg4 harg4 hc0 x0 x1 acc)]
  unfold kernelRun0_B
  dsimp only
  sl_unfold_words
  rw [View.canon_unit_zero hz3]
  simp only [View.readAt_eq_ld, harg2.read_unread, harg3.read_unread, harg4.read_unread,
    View.ld_unit_zero (S := S1x1x32x88) hz4, View.ld_unit_zero (S := S1x64x2816) hz3, View.ld_unit_zero (S := S1x64x1280) hz3]

/-- The first point of a batch element: the block becomes the same payload over the zero block it has just stored. -/
theorem first_point (c : Dev nD) (i : grid0.Coords) (arg2 : Memref sig .tc .vmem S1x1x32x88 .i32) (harg2 : arg2.IsWhole)
    (arg3 : Memref sig .tc .vmem S1x64x2816 .bf16) (harg3 : arg3.IsWhole) (arg4 : Memref sig .tc .vmem S1x64x1280 .f32)
    (harg4 : arg4.IsWhole) (hc0 : cond0_0 i) (x0 : Vec F S1x1x32x88 .i32) (x1 : Vec F S1x64x2816 .bf16) :
    out0_A_2 c i arg2 harg2 arg3 harg3 arg4 harg4 hc0 x0 x1 = k0_pay2 x0 x1 (k0_pay1 (F := F)) := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x64x1280) hz3, View.readCov_unit_zero (S := S1x64x1280) _ hz3]
  simp only [View.readAt_eq_ld, harg2.read_unread, harg3.read_unread,
    View.ld_unit_zero (S := S1x1x32x88) hz4, View.ld_unit_zero (S := S1x64x2816) hz3, View.ld_unit_zero (S := S1x64x1280) hz3]

end Cert.KernelIdeal.Acc

end
-- ==== Proof.Pool.lean ====
/-
  The function both programs compute: pooling of camera features onto a (z, x) grid of voxel cells.

  Each point (b, t, h, w) of a batch element b carries a feature column x[b, ·, h, w] and three signed 32-bit coordinates
  (xx, yy, zz).  A point COUNTS when 0 ≤ xx < 128, 0 ≤ yy < 128 and 0 ≤ zz < 10; a point that counts lies in cell
  zz·128 + xx of its batch element.  The result at (b, c, z, xq) is the sum of x[b, c, h, w] over the points of batch
  element b that count and lie in cell z·128 + xq.  Over the extended reals that sum needs no finiteness: only
  commutativity and associativity of +, and u·1 = u, u·0 = 0.
-/
import Idealize.ShloMosaic.PureOps.Ideal
import Idealize.ShloMosaic.Lib.ValueIdx

noncomputable section

open scoped BigOperators

namespace Cert.Pool

open Idealize.ShloMosaic Idealize.ShloMosaic.ValueIdx

/-- The feature array's shape, the coordinate array's, the result's. -/
abbrev SX : Shape := ⟨4, ![4, 64, 32, 88]⟩
abbrev SF : Shape := ⟨5, ![4, 60, 32, 88, 3]⟩
abbrev SO : Shape := ⟨4, ![4, 64, 10, 128]⟩

/-- The six-way range test of a coordinate triple, as the one-bit word both programs compute (the conjunction is
    nested to the left, in the order xx ≥ 0, xx < 128, yy ≥ 0, yy < 128, zz ≥ 0, zz < 10). -/
def counts (xx yy zz : BitVec 32) : BitVec 1 :=
  IntOp.andi (IntOp.andi (IntOp.andi (IntOp.andi (IntOp.andi (IntOp.cmpi .sge xx 0#32) (IntOp.cmpi .slt xx 128#32))
    (IntOp.cmpi .sge yy 0#32)) (IntOp.cmpi .slt yy 128#32)) (IntOp.cmpi .sge zz 0#32)) (IntOp.cmpi .slt zz 10#32)

/-- The cell of a point within its batch element: zz·128 + xx when the point counts, the out-of-grid word 1280 otherwise
    (32-bit wrap-around arithmetic). -/
def cell (xx yy zz : BitVec 32) : BitVec 32 :=
  Scalar.select (counts xx yy zz) (IntOp.addi (IntOp.muli zz 128#32) xx) 1280#32

/-- The cell of a point in the dense (b, z, x, y) grid: ((b·10 + zz)·128 + xx)·128 + yy when the point counts, the
    out-of-grid word 655360 otherwise (32-bit wrap-around arithmetic). -/
def denseCell (bw xx yy zz : BitVec 32) : BitVec 32 :=
  Scalar.select (counts xx yy zz)
    (IntOp.addi (IntOp.muli (IntOp.addi (IntOp.muli (IntOp.addi (IntOp.muli bw 10#32) zz) 128#32) xx) 128#32) yy) 655360#32

/-- The cell of point (b, t, h, w), read off the coordinate array. -/
def cellAt (f : SF.Idx → BitVec 32) (b : Fin 4) (t : Fin 60) (h : Fin 32) (w : Fin 88) : BitVec 32 :=
  cell (f (ix5 b t h w (0 : Fin 3))) (f (ix5 b t h w (1 : Fin 3))) (f (ix5 b t h w (2 : Fin 3)))

/-- Row and column of position k of a flattened 32 × 88 image. -/
def rowOf (k : Fin 2816) : Fin 32 := ⟨k.val / 88, by have := k.isLt; omega⟩
def colOf (k : Fin 2816) : Fin 88 := ⟨k.val % 88, by have := k.isLt; omega⟩

/-- THE POOLED GRID: at (b, c, z, xq), the sum over the 60 depth layers t and the 2816 pixels k of
    x[b, c, row k, col k] taken when point (b, t, row k, col k) lies in cell z·128 + xq, and 0 otherwise. -/
def pooled (x : SX.Idx → EReal) (f : SF.Idx → BitVec 32) : SO.Idx → EReal := fun i =>
  ∑ t : Fin 60, ∑ k : Fin 2816,
    x (ix4 (i 0) (i 1) (rowOf k) (colOf k))
      * (if cellAt f (i 0) t (rowOf k) (colOf k) = BitVec.ofNat 32 ((i 2).val * 128 + (i 3).val) then (1 : EReal) else 0)

end Cert.Pool

end
-- ==== Proof.LayerSum.lean ====
/-
  One depth layer's contribution, read at an element.  The body compares the layer's 32 × 88 cell words with the column
  number along a new last axis of length 1280, turns the comparison into the numbers 0 and 1, flattens the two image
  axes into one of length 2816, and multiplies the 64 × 2816 feature block by this 2816 × 1280 matrix of zeros and ones.
  So entry (c, v) of the product is the sum over the pixels k of feature (c, k) taken when pixel k's cell word is v,
  and the stored block is the running block plus that product.
-/
import proofs.«430443_j69715909149218_3_alg».proof.Proof.Gen.KernelIdeal.Skeleton
import proofs.«430443_j69715909149218_3_alg».proof.Proof.Pool
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Layer

open Idealize.ShloMosaic Idealize.ShloMosaic.ValueIdx
open Cert.KernelIdeal Cert.KernelIdeal.Gen Cert.Pool

/-! ## The matrix product at an element -/

theorem lhs_rows (i : S64x1280.Idx) (q : dot_S64x2816_S2816x1280_S64x1280_1_0_0_1_n_n.contr.Idx) :
    (dot_S64x2816_S2816x1280_S64x1280_1_0_0_1_n_n.lhsIdx i q 0).val = (i 0).val := by
  unfold DotDims.lhsIdx
  rw [dif_neg (show ¬(0 : Fin S64x2816.rank) ∈ dot_S64x2816_S2816x1280_S64x1280_1_0_0_1_n_n.lhsBatch by decide),
    dif_pos (show (0 : Fin S64x2816.rank) ∈ dot_S64x2816_S2816x1280_S64x1280_1_0_0_1_n_n.lhsNonContracting by decide)]
  rfl

theorem lhs_contracted (i : S64x1280.Idx) (q : dot_S64x2816_S2816x1280_S64x1280_1_0_0_1_n_n.contr.Idx) :
    (dot_S64x2816_S2816x1280_S64x1280_1_0_0_1_n_n.lhsIdx i q 1).val = (q ⟨0, by decide⟩).val :=
  dot_S64x2816_S2816x1280_S64x1280_1_0_0_1_n_n.lhsIdx_val_of_single rfl i q

theorem rhs_contracted (i : S64x1280.Idx) (q : dot_S64x2816_S2816x1280_S64x1280_1_0_0_1_n_n.contr.Idx) :
    (dot_S64x2816_S2816x1280_S64x1280_1_0_0_1_n_n.rhsIdx i q 0).val = (q ⟨0, by decide⟩).val :=
  dot_S64x2816_S2816x1280_S64x1280_1_0_0_1_n_n.rhsIdx_val_of_single rfl i q

theorem rhs_cols (i : S64x1280.Idx) (q : dot_S64x2816_S2816x1280_S64x1280_1_0_0_1_n_n.contr.Idx) :
    (dot_S64x2816_S2816x1280_S64x1280_1_0_0_1_n_n.rhsIdx i q 1).val = (i 1).val := by
  unfold DotDims.rhsIdx
  rw [dif_neg (show ¬(1 : Fin S2816x1280.rank) ∈ dot_S64x2816_S2816x1280_S64x1280_1_0_0_1_n_n.rhsBatch by decide),
    dif_pos (show (1 : Fin S2816x1280.rank) ∈ dot_S64x2816_S2816x1280_S64x1280_1_0_0_1_n_n.rhsNonContracting by decide)]
  rfl

/-- Entry (c, v) of the product into the zero block: the sum over the 2816 pixels of left (c, k) times right (k, v). -/
theorem product_at (L : FVec Ideal S64x2816 .bf16) (R : FVec Ideal S2816x1280 .bf16) (c : Fin 64) (v : Fin 1280) :
    matmul dot_S64x2816_S2816x1280_S64x1280_1_0_0_1_n_n none L R (constant S64x1280 .f32 0x00000000#32) (ix2 c v)
      = ∑ k : Fin 2816, L (ix2 c k) * R (ix2 k v) := by
  simp only [matmul]
  rw [Ideal.matmul_constant_zero_apply,
    ← Equiv.sum_comp (ValueIdx.contrEquiv1 dot_S64x2816_S2816x1280_S64x1280_1_0_0_1_n_n 2816 rfl rfl).symm]
  refine Finset.sum_congr rfl fun k _ => ?_
  have hk := ValueIdx.contrEquiv1_symm_val dot_S64x2816_S2816x1280_S64x1280_1_0_0_1_n_n 2816 rfl rfl k
  have el : dot_S64x2816_S2816x1280_S64x1280_1_0_0_1_n_n.lhsIdx (ix2 c v)
      ((ValueIdx.contrEquiv1 dot_S64x2816_S2816x1280_S64x1280_1_0_0_1_n_n 2816 rfl rfl).symm k) = ix2 c k :=
    funext fun a => Fin.ext (by
      match a with
      | ⟨0, _⟩ => exact lhs_rows _ _
      | ⟨1, _⟩ => exact (lhs_contracted _ _).trans hk)
  have er : dot_S64x2816_S2816x1280_S64x1280_1_0_0_1_n_n.rhsIdx (ix2 c v)
      ((ValueIdx.contrEquiv1 dot_S64x2816_S2816x1280_S64x1280_1_0_0_1_n_n 2816 rfl rfl).symm k) = ix2 k v :=
    funext fun a => Fin.ext (by
      match a with
      | ⟨0, _⟩ => exact (rhs_contracted _ _).trans hk
      | ⟨1, _⟩ => exact rhs_cols _ _)
  rw [el, er]

/-! ## The matrix of zeros and ones -/

/-- A comparison bit, widened to a word and read as a number, is 1 when the two words are equal and 0 when not. -/
theorem indicator (a b : BitVec 32) :
    (FloatOps.sitofp (F := Ideal) .f32 ((IntOp.cmpi .eq a b).setWidth 32) : EReal) = if a = b then (1 : EReal) else 0 := by
  show (((((IntOp.cmpi .eq a b).setWidth 32).toInt : ℝ) : EReal)) = _
  by_cases h : a = b
  · subst h
    rw [if_pos rfl]
    have : ((IntOp.cmpi .eq a a).setWidth 32) = 1#32 := by simp [IntOp.cmpi]
    rw [this]
    norm_num
  · rw [if_neg h]
    have hb : (a == b) = false := by simpa using h
    have : ((IntOp.cmpi .eq a b).setWidth 32) = 0#32 := by simp [IntOp.cmpi, hb]
    rw [this]
    norm_num

/-- Entry (k, v) of the flattened comparison matrix: 1 when pixel k's cell word is v, else 0. -/
theorem onehot_at (v3 : Vec Ideal S1x1x32x88 .i32) (k : Fin 2816) (v : Fin 1280) :
    (shapeCast S2816x1280
        (truncf .bf16
          (sitofp .f32
            (extui 32
              (cmpi .eq
                (broadcastTo S1x32x88x1280
                  (shapeCast S1x32x88x1 (shapeCast S1x32x88 v3 shapeCasts_S1x1x32x88_S1x32x88) shapeCasts_S1x32x88_S1x32x88x1)
                  broadcasts_S1x32x88x1_S1x32x88x1280)
                (iota .tc S1x32x88x1280 32 [3] iota_S1x32x88x1280_d3_w32))
              natLt_1_32))
          bitsLt_bf16_f32)
        shapeCasts_S1x32x88x1280_S2816x1280 : FVec Ideal S2816x1280 .bf16) (ix2 k v)
      = if v3 (ix4 (0 : Fin 1) (0 : Fin 1) (rowOf k) (colOf k)) = BitVec.ofNat 32 v.val then (1 : EReal) else 0 := by
  have hk : k.val < 2816 := k.isLt
  rw [shapeCast_apply _ shapeCasts_S1x32x88x1280_S2816x1280 (ix2 k v) (ix4 (0 : Fin 1) (rowOf k) (colOf k) v) (by
    rw [Shape.rowMajor_val_four, Shape.rowMajor_val_two]
    show ((0 * 32 + k.val / 88) * 88 + k.val % 88) * 1280 + v.val = k.val * 1280 + v.val
    omega)]
  rw [truncf_apply, sitofp_apply, extui_apply]
  simp only [cmpi]
  rw [broadcastTo_apply _ broadcasts_S1x32x88x1_S1x32x88x1280 (ix4 (0 : Fin 1) (rowOf k) (colOf k) v)
      (ix4 (0 : Fin 1) (rowOf k) (colOf k) (0 : Fin 1)) (fun a => by
        match a with
        | ⟨0, _⟩ => rfl
        | ⟨1, _⟩ => rfl
        | ⟨2, _⟩ => rfl
        | ⟨3, _⟩ => rfl),
    shapeCast_apply _ shapeCasts_S1x32x88_S1x32x88x1 (ix4 (0 : Fin 1) (rowOf k) (colOf k) (0 : Fin 1))
      (ix3 (0 : Fin 1) (rowOf k) (colOf k)) (by
        rw [Shape.rowMajor_val_three, Shape.rowMajor_val_four]
        show (0 * 32 + k.val / 88) * 88 + k.val % 88 = ((0 * 32 + k.val / 88) * 88 + k.val % 88) * 1 + 0
        omega),
    shapeCast_apply _ shapeCasts_S1x1x32x88_S1x32x88 (ix3 (0 : Fin 1) (rowOf k) (colOf k))
      (ix4 (0 : Fin 1) (0 : Fin 1) (rowOf k) (colOf k)) (by
        rw [Shape.rowMajor_val_four, Shape.rowMajor_val_three]
        show ((0 * 1 + 0) * 32 + k.val / 88) * 88 + k.val % 88 = (0 * 32 + k.val / 88) * 88 + k.val % 88
        omega),
    iota_single_apply .tc S1x32x88x1280 32 3 iota_S1x32x88x1280_d3_w32]
  exact indicator _ _

/-! ## The stored block -/

/-- The stored block at (0, c, v): the running block there, plus the sum over the pixels k of feature (c, k) taken when
    pixel k's cell word is v. -/
theorem layer_at (v3 : Vec Ideal S1x1x32x88 .i32) (v13 : Vec Ideal S1x64x2816 .bf16) (v16 : Vec Ideal S1x64x1280 .f32)
    (c : Fin 64) (v : Fin 1280) :
    k0_pay2 (F := Ideal) v3 v13 v16 (ix3 (0 : Fin 1) c v)
      = v16 (ix3 (0 : Fin 1) c v)
        + ∑ k : Fin 2816, v13 (ix3 (0 : Fin 1) c k)
            * (if v3 (ix4 (0 : Fin 1) (0 : Fin 1) (rowOf k) (colOf k)) = BitVec.ofNat 32 v.val then (1 : EReal) else 0) := by
  unfold k0_pay2
  dsimp only
  rw [shapeCast_ab_1ab_apply, addf_apply, shapeCast_1ab_ab_apply, product_at]
  refine congrArg (_ + ·) (Finset.sum_congr rfl fun k _ => ?_)
  rw [shapeCast_1ab_ab_apply, onehot_at]

/-- The block a batch element starts from is zero everywhere. -/
theorem zero_at (c : Fin 64) (v : Fin 1280) : k0_pay1 (F := Ideal) (ix3 (0 : Fin 1) c v) = 0 := by
  unfold k0_pay1
  rw [shapeCast_ab_1ab_apply, broadcast_apply]
  exact Ideal.ofBits_zero_f32

end Cert.KernelIdeal.Layer

end
-- ==== Proof.EntryArrays.lean ====
/-
  What the two staged arrays hold when the grid starts.  The host lines before it slice the three coordinates out of
  the coordinate array, test their ranges, and form each point's cell word zz·128 + xx, replaced by the out-of-grid
  word 1280 where the point does not count; and they flatten the two image axes of the feature array into one (the
  change of float format that follows is the identity on the extended reals).
-/
import proofs.«430443_j69715909149218_3_alg».proof.Proof.Gen.KernelIdeal.Frame
import proofs.«430443_j69715909149218_3_alg».proof.Proof.Pool
import Idealize.ShloMosaic.Lib.ValueIdx
import Idealize.ShloMosaic.Lib.Pipeline.Value
import Idealize.ShloMosaic.Lib.StableHlo.Run

noncomputable section

namespace Cert.KernelIdeal.Entry

open Idealize.ShloMosaic Idealize.ShloMosaic.TcCoe Idealize.ShloMosaic.ValueIdx Idealize.SL.Sem
open Idealize.ShloMosaic.StableHlo
open Cert.KernelIdeal Cert.KernelIdeal.Gen Cert.Pool

variable (m : (ℓ : Loc nD τ sig) → Buf (Elt Ideal) ℓ)

/-- Coordinate j of point (b, t, h, w): the slice of the last axis at offset j, with the unit axis dropped. -/
theorem coord_at (f : S4x60x32x88x3.Idx → BitVec 32) (off : Fin 5 → Nat) (j : Fin 3) (hoff : off = ![0, 0, 0, 0, j.val])
    (hs : S4x60x32x88x3.Slices off S4x60x32x88x1) (b : Fin 4) (t : Fin 60) (h : Fin 32) (w : Fin 88) :
    shapeCast S4x60x32x88 (extractStridedSlice S4x60x32x88x1 off f hs) shapeCasts_S4x60x32x88x1_S4x60x32x88 (ix4 b t h w)
      = f (ix5 b t h w j) := by
  subst hoff
  rw [shapeCast_apply _ shapeCasts_S4x60x32x88x1_S4x60x32x88 (ix4 b t h w) (ix5 b t h w (0 : Fin 1)) (by
      rw [Shape.rowMajor_val_five, Shape.rowMajor_val_four]
      show (((b.val * 60 + t.val) * 32 + h.val) * 88 + w.val) * 1 + 0 = ((b.val * 60 + t.val) * 32 + h.val) * 88 + w.val
      omega),
    extractStridedSlice_apply _ f hs (ix5 b t h w (0 : Fin 1)) (ix5 b t h w j) (fun a => by
      match a with
      | ⟨0, _⟩ => show b.val = 0 + b.val; omega
      | ⟨1, _⟩ => show t.val = 0 + t.val; omega
      | ⟨2, _⟩ => show h.val = 0 + h.val; omega
      | ⟨3, _⟩ => show w.val = 0 + w.val; omega
      | ⟨4, _⟩ => show j.val = j.val + 0; omega)]

/-- A broadcast constant word reads that word everywhere. -/
theorem splat_at (v : BitVec 32) (i : S4x60x32x88.Idx) :
    broadcastInDim S4x60x32x88 ![] bcast_S_S4x60x32x88 (constantI S_ 32 v) i = v :=
  (broadcastInDim_apply _ bcast_S_S4x60x32x88 (constantI S_ 32 v) i (fun a => a.elim0) (fun a => a.elim0)).trans rfl

/-- The host's cell computation at one point, word by word, is the point's cell word. -/
theorem cell_form (f : S4x60x32x88x3.Idx → BitVec 32) (b : Fin 4) (t : Fin 60) (h : Fin 32) (w : Fin 88) :
    Scalar.select
        (IntOp.andi (IntOp.andi (IntOp.andi (IntOp.andi (IntOp.andi
          (IntOp.cmpi .sge
            (shapeCast S4x60x32x88 (extractStridedSlice S4x60x32x88x1 ![0, 0, 0, 0, 0] f slices_S4x60x32x88x3_S4x60x32x88x1_0_0_0_0_0) shapeCasts_S4x60x32x88x1_S4x60x32x88 (ix4 b t h w))
            (broadcastInDim S4x60x32x88 ![] bcast_S_S4x60x32x88 (constantI S_ 32 0#32) (ix4 b t h w)))
          (IntOp.cmpi .slt
            (shapeCast S4x60x32x88 (extractStridedSlice S4x60x32x88x1 ![0, 0, 0, 0, 0] f slices_S4x60x32x88x3_S4x60x32x88x1_0_0_0_0_0) shapeCasts_S4x60x32x88x1_S4x60x32x88 (ix4 b t h w))
            (broadcastInDim S4x60x32x88 ![] bcast_S_S4x60x32x88 (constantI S_ 32 128#32) (ix4 b t h w))))
          (IntOp.cmpi .sge
            (shapeCast S4x60x32x88 (extractStridedSlice S4x60x32x88x1 ![0, 0, 0, 0, 1] f slices_S4x60x32x88x3_S4x60x32x88x1_0_0_0_0_1) shapeCasts_S4x60x32x88x1_S4x60x32x88 (ix4 b t h w))
            (broadcastInDim S4x60x32x88 ![] bcast_S_S4x60x32x88 (constantI S_ 32 0#32) (ix4 b t h w))))
          (IntOp.cmpi .slt
            (shapeCast S4x60x32x88 (extractStridedSlice S4x60x32x88x1 ![0, 0, 0, 0, 1] f slices_S4x60x32x88x3_S4x60x32x88x1_0_0_0_0_1) shapeCasts_S4x60x32x88x1_S4x60x32x88 (ix4 b t h w))
            (broadcastInDim S4x60x32x88 ![] bcast_S_S4x60x32x88 (constantI S_ 32 128#32) (ix4 b t h w))))
          (IntOp.cmpi .sge
            (shapeCast S4x60x32x88 (extractStridedSlice S4x60x32x88x1 ![0, 0, 0, 0, 2] f slices_S4x60x32x88x3_S4x60x32x88x1_0_0_0_0_2) shapeCasts_S4x60x32x88x1_S4x60x32x88 (ix4 b t h w))
            (broadcastInDim S4x60x32x88 ![] bcast_S_S4x60x32x88 (constantI S_ 32 0#32) (ix4 b t h w))))
          (IntOp.cmpi .slt
            (shapeCast S4x60x32x88 (extractStridedSlice S4x60x32x88x1 ![0, 0, 0, 0, 2] f slices_S4x60x32x88x3_S4x60x32x88x1_0_0_0_0_2) shapeCasts_S4x60x32x88x1_S4x60x32x88 (ix4 b t h w))
            (broadcastInDim S4x60x32x88 ![] bcast_S_S4x60x32x88 (constantI S_ 32 10#32) (ix4 b t h w))))
        (IntOp.addi
          (IntOp.muli
            (shapeCast S4x60x32x88 (extractStridedSlice S4x60x32x88x1 ![0, 0, 0, 0, 2] f slices_S4x60x32x88x3_S4x60x32x88x1_0_0_0_0_2) shapeCasts_S4x60x32x88x1_S4x60x32x88 (ix4 b t h w))
            (broadcastInDim S4x60x32x88 ![] bcast_S_S4x60x32x88 (constantI S_ 32 128#32) (ix4 b t h w)))
          (shapeCast S4x60x32x88 (extractStridedSlice S4x60x32x88x1 ![0, 0, 0, 0, 0] f slices_S4x60x32x88x3_S4x60x32x88x1_0_0_0_0_0) shapeCasts_S4x60x32x88x1_S4x60x32x88 (ix4 b t h w)))
        (broadcastInDim S4x60x32x88 ![] bcast_S_S4x60x32x88 (constantI S_ 32 1280#32) (ix4 b t h w))
      = cellAt f b t h w := by
  rw [coord_at f ![0, 0, 0, 0, 0] (0 : Fin 3) rfl slices_S4x60x32x88x3_S4x60x32x88x1_0_0_0_0_0 b t h w,
    coord_at f ![0, 0, 0, 0, 1] (1 : Fin 3) rfl slices_S4x60x32x88x3_S4x60x32x88x1_0_0_0_0_1 b t h w,
    coord_at f ![0, 0, 0, 0, 2] (2 : Fin 3) rfl slices_S4x60x32x88x3_S4x60x32x88x1_0_0_0_0_2 b t h w]
  simp only [splat_at]
  rfl

/-- The staged cell array at (b, t, h, w) is the point's cell word. -/
theorem cells_at (c : Dev nD) (b : Fin 4) (t : Fin 60) (h : Fin 32) (w : Fin 88) :
    (V m c main_v26 : S4x60x32x88.Idx → BitVec 32) (ix4 b t h w)
      = cellAt (m ((c : Thread nD τ).loc main_arg1)) b t h w := by
  dsimp only [V, V0]
  simp only [hostOps0, hostOps0_1, hostOps0_2, List.flatten_cons, List.flatten_nil, List.append_nil, List.cons_append,
    List.nil_append]
  after_results_simp
  exact cell_form (m ((c : Thread nD τ).loc main_arg1)) b t h w

/-- The staged feature array at (b, channel, pixel k) is the feature at (b, channel, row k, col k). -/
theorem features_at (c : Dev nD) (b : Fin 4) (ch : Fin 64) (k : Fin 2816) :
    (V m c main_v28 : S4x64x2816.Idx → EReal) (ix3 b ch k)
      = (m ((c : Thread nD τ).loc main_arg0) : S4x64x32x88.Idx → EReal) (ix4 b ch (rowOf k) (colOf k)) := by
  dsimp only [V, V0]
  simp only [hostOps0, hostOps0_1, hostOps0_2, List.flatten_cons, List.flatten_nil, List.append_nil, List.cons_append,
    List.nil_append]
  after_results_simp
  have hk : k.val < 2816 := k.isLt
  show shapeCast S4x64x2816 (m ((c : Thread nD τ).loc main_arg0)) shapeCasts_S4x64x32x88_S4x64x2816 (ix3 b ch k) = _
  exact shapeCast_apply _ shapeCasts_S4x64x32x88_S4x64x2816 (ix3 b ch k) (ix4 b ch (rowOf k) (colOf k)) (by
    rw [Shape.rowMajor_val_four, Shape.rowMajor_val_three]
    show ((b.val * 64 + ch.val) * 32 + k.val / 88) * 88 + k.val % 88 = (b.val * 64 + ch.val) * 2816 + k.val
    omega)

end Cert.KernelIdeal.Entry

end
-- ==== Proof.Blocks.lean ====
/-
  The blocks the grid stages.  Grid point n (of 240) works on batch element n / 60 and depth layer n % 60.  Its cell
  block is the 32 × 88 image of cell words of that batch element and layer; its feature block is the whole 64 × 2816
  feature matrix of that batch element; its output block is the 64 × 1280 slab of that batch element.
-/
import proofs.«430443_j69715909149218_3_alg».proof.Proof.Gen.KernelIdeal.Frame
import Idealize.ShloMosaic.Lib.ValueIdx
import Idealize.ShloMosaic.Lib.Pipeline.Value

noncomputable section

namespace Cert.KernelIdeal.Blocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

theorem point_lt (t : Fin cfg0.N) : t.val < 240 := lt_of_lt_of_eq t.isLt (show cfg0.N = 240 from N_0)

/-- The batch element and the depth layer of a grid point. -/
def batchOf (t : Fin cfg0.N) : Fin 4 := ⟨t.val / 60, by have := point_lt t; omega⟩
def layerOf (t : Fin cfg0.N) : Fin 60 := ⟨t.val % 60, by have := point_lt t; omega⟩

/-- The cell block of a point, at pixel (h, w): the staged cell array at (batch, layer, h, w). -/
theorem cell_block_at (c : Dev nD) (t : Fin cfg0.N) (h : Fin 32) (w : Fin 88) :
    (iblk m c 0 t : Vec Ideal S1x1x32x88 .i32) (ix4 (0 : Fin 1) (0 : Fin 1) h w)
      = (V m c main_v26 : S4x60x32x88.Idx → BitVec 32) (ix4 (batchOf t) (layerOf t) h w) := by
  -- On each axis the array coordinate is (block index) × (block extent) + (coordinate inside the block); the block
  -- indices of the 240 grid points are (n / 60, n % 60, 0, 0), checked point by point.
  have hi : ∀ t : Fin cfg0.N, win0_0.index t 0 = t.val / 60 ∧ win0_0.index t 1 = t.val % 60
      ∧ win0_0.index t 2 = 0 ∧ win0_0.index t 3 = 0 :=
    (by decide +kernel : ∀ t : Fin grid0.N, win0_0.index t 0 = t.val / 60 ∧ win0_0.index t 1 = t.val % 60
      ∧ win0_0.index t 2 = 0 ∧ win0_0.index t 3 = 0)
  obtain ⟨h0, h1, h2, h3⟩ := hi t
  unfold iblk
  rw [View.read_apply]
  show V m c main_v26 _ = V m c main_v26 _
  congr 1
  funext a
  apply Fin.ext
  match a with
  | ⟨0, _⟩ =>
    show win0_0.index t 0 * 1 + 1 * 0 = t.val / 60
    rw [h0]
    omega
  | ⟨1, _⟩ =>
    show win0_0.index t 1 * 1 + 1 * 0 = t.val % 60
    rw [h1]
    omega
  | ⟨2, _⟩ =>
    show win0_0.index t 2 * 32 + 1 * h.val = h.val
    rw [h2]
    omega
  | ⟨3, _⟩ =>
    show win0_0.index t 3 * 88 + 1 * w.val = w.val
    rw [h3]
    omega

/-- The feature block of a point, at (channel, pixel): the staged feature array at (batch, channel, pixel). -/
theorem feature_block_at (c : Dev nD) (t : Fin cfg0.N) (ch : Fin 64) (k : Fin 2816) :
    (iblk m c 1 t : Vec Ideal S1x64x2816 .bf16) (ix3 (0 : Fin 1) ch k)
      = (V m c main_v28 : S4x64x2816.Idx → EReal) (ix3 (batchOf t) ch k) := by
  -- The block indices of the 240 grid points are (n / 60, 0, 0), checked point by point; the block spans axes 1 and 2.
  have hi : ∀ t : Fin cfg0.N, win0_1.index t 0 = t.val / 60 ∧ win0_1.index t 1 = 0 ∧ win0_1.index t 2 = 0 :=
    (by decide +kernel : ∀ t : Fin grid0.N, win0_1.index t 0 = t.val / 60 ∧ win0_1.index t 1 = 0
      ∧ win0_1.index t 2 = 0)
  obtain ⟨h0, h1, h2⟩ := hi t
  unfold iblk
  rw [View.read_apply]
  show V m c main_v28 _ = V m c main_v28 _
  congr 1
  funext a
  apply Fin.ext
  match a with
  | ⟨0, _⟩ =>
    show win0_1.index t 0 * 1 + 1 * 0 = t.val / 60
    rw [h0]
    omega
  | ⟨1, _⟩ =>
    show win0_1.index t 1 * 64 + 1 * ch.val = ch.val
    rw [h1]
    omega
  | ⟨2, _⟩ =>
    show win0_1.index t 2 * 2816 + 1 * k.val = k.val
    rw [h2]
    omega

end Cert.KernelIdeal.Blocks

end
-- ==== Proof.RunningSum.lean ====
/-
  The running sum.  Within a batch element b the grid visits the depth layers 0, 1, …, 59 in order, and the output block
  is carried from one layer to the next.  After layer l the block holds, at (c, v), the sum over the layers 0 … l of the
  layer's contribution: the sum over the pixels k of x[b, c, row k, col k] taken when point (b, layer, row k, col k) lies
  in cell v.  By induction on the grid point: the first layer starts from the zero block, each later layer adds its
  contribution to what the layer before left.
-/
import proofs.«430443_j69715909149218_3_alg».proof.Proof.CaseValues
import proofs.«430443_j69715909149218_3_alg».proof.Proof.LayerSum
import proofs.«430443_j69715909149218_3_alg».proof.Proof.EntryArrays
import proofs.«430443_j69715909149218_3_alg».proof.Proof.Blocks

noncomputable section

open scoped BigOperators

namespace Cert.KernelIdeal.Acc

open Idealize.ShloMosaic Idealize.ShloMosaic.TcCoe Idealize.ShloMosaic.ValueIdx Idealize.SL.Sem
open Cert.KernelIdeal Cert.KernelIdeal.Gen Cert.Pool Cert.KernelIdeal.Blocks

variable (m : (ℓ : Loc nD τ sig) → Buf (Elt Ideal) ℓ)

/-- One depth layer's contribution to cell v of batch element b, channel c. -/
def layerTerm (x : SX.Idx → EReal) (f : SF.Idx → BitVec 32) (b : Fin 4) (c : Fin 64) (v : Fin 1280) (t : Fin 60) : EReal :=
  ∑ k : Fin 2816, x (ix4 b c (rowOf k) (colOf k))
    * (if cellAt f b t (rowOf k) (colOf k) = BitVec.ofNat 32 v.val then (1 : EReal) else 0)

/-- The two input blocks of a grid point, at their literal types. -/
abbrev cellBlk (c : Dev nD) (t : Fin cfg0.N) : Vec Ideal S1x1x32x88 .i32 := iblk m c 0 t
abbrev featBlk (c : Dev nD) (t : Fin cfg0.N) : Vec Ideal S1x64x2816 .bf16 := iblk m c 1 t

/-- The pixel sum a grid point adds, over its two blocks, is its layer's contribution. -/
theorem point_term (c : Dev nD) (t : Fin cfg0.N) (ch : Fin 64) (v : Fin 1280) :
    (∑ k : Fin 2816, featBlk m c t (ix3 (0 : Fin 1) ch k)
        * (if cellBlk m c t (ix4 (0 : Fin 1) (0 : Fin 1) (rowOf k) (colOf k)) = BitVec.ofNat 32 v.val then (1 : EReal) else 0))
      = layerTerm (m ((c : Thread nD τ).loc main_arg0)) (m ((c : Thread nD τ).loc main_arg1)) (batchOf t) ch v (layerOf t) := by
  unfold layerTerm
  refine Finset.sum_congr rfl fun k _ => ?_
  rw [show featBlk m c t (ix3 (0 : Fin 1) ch k) = _ from feature_block_at m c t ch k,
    show cellBlk m c t (ix4 (0 : Fin 1) (0 : Fin 1) (rowOf k) (colOf k)) = _ from cell_block_at m c t (rowOf k) (colOf k),
    Entry.features_at m c (batchOf t) ch k, Entry.cells_at m c (batchOf t) (layerOf t) (rowOf k) (colOf k)]

/-- The layers of a batch element up to layer l. -/
def upTo (l : ℕ) : Finset (Fin 60) := Finset.univ.filter fun t => t.val ≤ l

theorem upTo_zero : upTo 0 = {(⟨0, by decide⟩ : Fin 60)} := by
  ext t
  simp only [upTo, Finset.mem_filter, Finset.mem_univ, true_and, Finset.mem_singleton, Fin.ext_iff]
  omega

theorem upTo_succ (l : ℕ) (hl : l + 1 < 60) : upTo (l + 1) = insert (⟨l + 1, hl⟩ : Fin 60) (upTo l) := by
  ext t
  simp only [upTo, Finset.mem_filter, Finset.mem_univ, true_and, Finset.mem_insert, Fin.ext_iff]
  omega

theorem not_mem_upTo (l : ℕ) (hl : l + 1 < 60) : (⟨l + 1, hl⟩ : Fin 60) ∉ upTo l := by
  simp only [upTo, Finset.mem_filter, Finset.mem_univ, true_and]
  omega

/-- THE RUNNING SUM: after grid point n the carried block holds, at (c, v), the contributions of the layers
    0 … n % 60 of batch element n / 60. -/
theorem running (c : Dev nD) : ∀ (n : ℕ) (hn : n < cfg0.N) (ch : Fin 64) (v : Fin 1280),
    outsAt0 m c n hn (ix3 (0 : Fin 1) ch v)
      = ∑ t' ∈ upTo (n % 60), layerTerm (m ((c : Thread nD τ).loc main_arg0)) (m ((c : Thread nD τ).loc main_arg1))
          (batchOf ⟨n, hn⟩) ch v t' := by
  intro n
  induction n with
  | zero =>
    intro hn ch v
    have h0 : (⟨0, hn⟩ : Fin cfg0.N).val % 60 = 0 := rfl
    rw [outsAt0_A m c ⟨0, hn⟩ h0]
    refine (congrFun (first_point c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) ((hcond0_0 ⟨0, hn⟩).mpr h0) (cellBlk m c ⟨0, hn⟩) (featBlk m c ⟨0, hn⟩)) (ix3 (0 : Fin 1) ch v)).trans ?_
    rw [Layer.layer_at, Layer.zero_at, zero_add, point_term]
    show _ = ∑ t' ∈ upTo 0, _
    rw [upTo_zero, Finset.sum_singleton]
    rfl
  | succ n ih =>
    intro hn ch v
    have hN : n + 1 < 240 := lt_of_lt_of_eq hn (show cfg0.N = 240 from N_0)
    by_cases h0 : (n + 1) % 60 = 0
    · rw [outsAt0_A m c ⟨n + 1, hn⟩ h0]
      refine (congrFun (first_point c (grid0.coords ⟨n + 1, hn⟩) (ms0_0 ⟨n + 1, hn⟩) (hs0_0 ⟨n + 1, hn⟩) (ms0_1 ⟨n + 1, hn⟩)
        (hs0_1 ⟨n + 1, hn⟩) (ms0_2 ⟨n + 1, hn⟩) (hs0_2 ⟨n + 1, hn⟩) ((hcond0_0 ⟨n + 1, hn⟩).mpr h0)
        (cellBlk m c ⟨n + 1, hn⟩) (featBlk m c ⟨n + 1, hn⟩)) (ix3 (0 : Fin 1) ch v)).trans ?_
      rw [Layer.layer_at, Layer.zero_at, zero_add, point_term, h0, upTo_zero, Finset.sum_singleton]
      exact congrArg (layerTerm _ _ _ ch v) (Fin.ext h0)
    · rw [outsAt0_B m c ⟨n + 1, hn⟩ h0]
      refine (congrFun (later_point c (grid0.coords ⟨n + 1, hn⟩) (ms0_0 ⟨n + 1, hn⟩) (hs0_0 ⟨n + 1, hn⟩) (ms0_1 ⟨n + 1, hn⟩)
        (hs0_1 ⟨n + 1, hn⟩) (ms0_2 ⟨n + 1, hn⟩) (hs0_2 ⟨n + 1, hn⟩) (fun h => h0 ((hcond0_0 ⟨n + 1, hn⟩).mp h))
        (cellBlk m c ⟨n + 1, hn⟩) (featBlk m c ⟨n + 1, hn⟩)
        (outsAt0 m c ((⟨n + 1, hn⟩ : Fin cfg0.N).val - 1) (Nat.lt_of_le_of_lt (Nat.sub_le _ _) (⟨n + 1, hn⟩ : Fin cfg0.N).isLt)))
        (ix3 (0 : Fin 1) ch v)).trans ?_
      rw [Layer.layer_at, point_term]
      show outsAt0 m c n (Nat.lt_of_succ_lt hn) (ix3 (0 : Fin 1) ch v) + _ = _
      rw [ih (Nat.lt_of_succ_lt hn) ch v]
      have hb : batchOf ⟨n, Nat.lt_of_succ_lt hn⟩ = batchOf ⟨n + 1, hn⟩ := Fin.ext (by
        show n / 60 = (n + 1) / 60
        omega)
      have hl : (n + 1) % 60 = n % 60 + 1 := by omega
      have hl' : n % 60 + 1 < 60 := by omega
      rw [hb, hl, upTo_succ _ hl', Finset.sum_insert (not_mem_upTo _ hl'), add_comm]
      exact congrArg (· + _) (congrArg (layerTerm _ _ _ ch v) (Fin.ext hl))

end Cert.KernelIdeal.Acc

end
-- ==== Proof.OutputTiles.lean ====
/-
  The output blocks tile the output array.  The block of batch element b is the 1 × 64 × 1280 slab at row b of the
  4 × 64 × 1280 array, and it is written back at the batch element's last grid point, 60·b + 59: every element of the
  array lies in the block some writing-back point writes.
-/
import proofs.«430443_j69715909149218_3_alg».proof.Proof.Gen.KernelIdeal.Frame
import Idealize.ShloMosaic.Lib.ValueIdx
import Idealize.ShloMosaic.Lib.Pipeline.Value

noncomputable section

namespace Cert.KernelIdeal.Tiles

open Idealize.ShloMosaic Idealize.ShloMosaic.TcCoe Idealize.ShloMosaic.ValueIdx Idealize.SL.Sem
open Cert.KernelIdeal Cert.KernelIdeal.Gen

/-- The output window's block index at a grid point: the batch element on the first axis, 0 on the other two. -/
theorem out_index : ∀ t : Fin cfg0.N, win0_2.index t (0 : Fin 3) = t.val / 60 ∧ win0_2.index t (1 : Fin 3) = 0
    ∧ win0_2.index t (2 : Fin 3) = 0 :=
  (by decide +kernel : ∀ t : Fin grid0.N, win0_2.index t (0 : Fin 3) = t.val / 60 ∧ win0_2.index t (1 : Fin 3) = 0
    ∧ win0_2.index t (2 : Fin 3) = 0)

/-- Every element of the output array is in the block of a point that writes back. -/
theorem covered (i : S4x64x1280.Idx) :
    ∃ t : Fin cfg0.N, (cfg0.win 2).flush t = true ∧ i ∈ ((cfg0.win 2).blk t).view.set := by
  have hN : cfg0.N = 240 := N_0
  have hi0 : (i 0).val < 4 := (i 0).isLt
  have hi1 : (i 1).val < 64 := (i 1).isLt
  have hi2 : (i 2).val < 1280 := (i 2).isLt
  -- No block is cut short by the array's end: every block has the full extents 1, 64, 1280.
  have hx : ∀ t : Fin cfg0.N, win0_2.xsize (grid0.coords t) (0 : Fin 3) = 1
      ∧ win0_2.xsize (grid0.coords t) (1 : Fin 3) = 64 ∧ win0_2.xsize (grid0.coords t) (2 : Fin 3) = 1280 :=
    (by decide +kernel : ∀ t : Fin grid0.N, win0_2.xsize (grid0.coords t) (0 : Fin 3) = 1
      ∧ win0_2.xsize (grid0.coords t) (1 : Fin 3) = 64 ∧ win0_2.xsize (grid0.coords t) (2 : Fin 3) = 1280)
  -- The last grid point of batch element i 0.
  let t : Fin cfg0.N := ⟨(i 0).val * 60 + 59, by rw [hN]; omega⟩
  have htv : t.val = (i 0).val * 60 + 59 := rfl
  obtain ⟨k0, k1, k2⟩ := out_index t
  obtain ⟨x0, x1, x2⟩ := hx t
  refine ⟨t, (flush0_2 t).mpr (by omega), ?_⟩
  show i ∈ ((View.whole main_v29).slice (win0_2.rect t)).set
  rw [View.set_slice_whole, Rect.mem_set_unit]
  intro a
  match a with
  | ⟨0, _⟩ =>
    show win0_2.index t 0 * 1 ≤ (i 0).val ∧ (i 0).val < win0_2.index t 0 * 1 + win0_2.xsize (grid0.coords t) 0
    rw [k0, x0]
    omega
  | ⟨1, _⟩ =>
    show win0_2.index t 1 * 64 ≤ (i 1).val ∧ (i 1).val < win0_2.index t 1 * 64 + win0_2.xsize (grid0.coords t) 1
    rw [k1, x1]
    omega
  | ⟨2, _⟩ =>
    show win0_2.index t 2 * 1280 ≤ (i 2).val ∧ (i 2).val < win0_2.index t 2 * 1280 + win0_2.xsize (grid0.coords t) 2
    rw [k2, x2]
    omega

end Cert.KernelIdeal.Tiles

end
-- ==== Proof.KernelValue.lean ====
/-
  The kernel's result.  The output block of batch element b is written back once, after the batch element's last
  depth layer, when it holds the sum of all 60 layers' contributions; the four blocks tile the 4 × 64 × 1280 array.  The
  host line after the grid splits the cell axis 1280 = 10 × 128 into (z, x): cell z·128 + x goes to (z, x).  So the
  result at (b, c, z, x) is the pooled grid's value there.
-/
import proofs.«430443_j69715909149218_3_alg».proof.Proof.RunningSum
import proofs.«430443_j69715909149218_3_alg».proof.Proof.OutputTiles
import Idealize.ShloMosaic.Lib.StableHlo.Run

noncomputable section

open scoped BigOperators

namespace Cert.KernelIdeal.Value

open Idealize.ShloMosaic Idealize.ShloMosaic.TcCoe Idealize.ShloMosaic.ValueIdx Idealize.SL.Sem
open Idealize.ShloMosaic.Pipeline (Dat)
open Idealize.ShloMosaic.StableHlo
open Cert.KernelIdeal Cert.KernelIdeal.Gen Cert.Pool Cert.KernelIdeal.Blocks Cert.KernelIdeal.Acc

variable (m : (ℓ : Loc nD τ sig) → Buf (Elt Ideal) ℓ) (ρ : Dev nD → PrngReg)

/-- The array the grid leaves: at (b, c, v) the sum over all 60 depth layers of the layer's contribution to cell v. -/
def slab (c : Dev nD) : S4x64x1280.Idx → EReal := fun i =>
  ∑ t' : Fin 60, layerTerm (m ((c : Thread nD τ).loc main_arg0)) (m ((c : Thread nD τ).loc main_arg1)) (i 0) (i 1) (i 2) t'

theorem upTo_last : upTo 59 = Finset.univ := by
  ext t
  simp only [upTo, Finset.mem_filter, Finset.mem_univ, true_and, iff_true]
  have := t.isLt
  omega

/-- What a writing-back point writes is its block of the slab. -/
theorem flushed_eq (c : Dev nD) (t : Fin cfg0.N) (hf : (cfg0.win 2).flush t = true) :
    (dats m 0 c).flushed 2 t = ((cfg0.win 2).blk t).view.read (Elt Ideal) (slab m c) := by
  have h59 : t.val % 60 = 59 := (flush0_2 t).mp hf
  obtain ⟨e0, e1, e2⟩ := Tiles.out_index t
  show (cfg0.win 2).cut (grid0.coords t) ((dats m 0 c).after 2 t) = _
  rw [after0_2]
  funext j
  rw [View.read_apply]
  show outsAt0 m c t.val t.isLt j = slab m c (((cfg0.win 2).blk t).view.emb j)
  have hj0 : (j 0).val < 1 := (j 0).isLt
  have hemb : ((cfg0.win 2).blk t).view.emb j = ix3 (batchOf t) (j 1) (j 2) := by
    funext a; apply Fin.ext
    match a with
    | ⟨0, _⟩ => show win0_2.index t (0 : Fin 3) * 1 + 1 * (j 0).val = t.val / 60; omega
    | ⟨1, _⟩ => show win0_2.index t (1 : Fin 3) * 64 + 1 * (j 1).val = (j 1).val; omega
    | ⟨2, _⟩ => show win0_2.index t (2 : Fin 3) * 1280 + 1 * (j 2).val = (j 2).val; omega
  have hj : j = ix3 (0 : Fin 1) (j 1) (j 2) := by
    funext a
    match a with
    | ⟨0, _⟩ => exact Fin.ext (by show (j 0).val = 0; omega)
    | ⟨1, _⟩ => rfl
    | ⟨2, _⟩ => rfl
  rw [hemb, show outsAt0 m c t.val t.isLt j = outsAt0 m c t.val t.isLt (ix3 (0 : Fin 1) (j 1) (j 2)) from congrArg _ hj,
    running m c t.val t.isLt (j 1) (j 2), h59, upTo_last]
  rfl

/-- The array the grid leaves is the slab: the four writing-back points' blocks tile it. -/
theorem final (c : Dev nD) : (dats m 0 c).arrAt 2 cfg0.N = slab m c :=
  (dats m 0 c).arrAt_eq_of_cover 2 (slab m c) (flushed_eq m c) Tiles.covered

/-- The host line after the grid reads cell z·128 + x of the slab at (z, x): the result is the pooled grid. -/
theorem result_eq (c : Dev nD) :
    Pipeline.afterTail₀ cfgs (dats m) 0 (V0 m) [hostOps1] c main_v30
      = pooled (m ((c : Thread nD τ).loc main_arg0)) (m ((c : Thread nD τ).loc main_arg1)) := by
  unfold Pipeline.afterTail₀
  show StableHlo.after hostOps1 _ (Proc.devRef .tc main_v30) = _
  after_results
  have e : Pipeline.withArrays (cfgs 0).spec c (V0 m c) (fun w => (dats m 0 c).arrAt w (cfgs 0).N) (Proc.devRef .tc main_v29)
      = slab m c :=
    (Pipeline.withArrays_arr spec0 launch0.win.arr_inj c (V0 m c) (fun w => (dats m 0 c).arrAt w cfg0.N) 2).trans (final m c)
  rw [e]
  funext (i : S4x64x10x128.Idx)
  obtain ⟨b, ch, z, xq, rfl⟩ : ∃ (b : Fin 4) (ch : Fin 64) (z : Fin 10) (xq : Fin 128), i = ix4 b ch z xq :=
    ⟨i 0, i 1, i 2, i 3, eq_ix4 i⟩
  have hz : z.val < 10 := z.isLt
  have hx : xq.val < 128 := xq.isLt
  show shapeCast S4x64x10x128 (slab m c) shapeCasts_S4x64x1280_S4x64x10x128 (ix4 b ch z xq) = _
  rw [shapeCast_apply _ shapeCasts_S4x64x1280_S4x64x10x128 (ix4 b ch z xq)
    (ix3 b ch (⟨z.val * 128 + xq.val, by omega⟩ : Fin 1280)) (by
      rw [Shape.rowMajor_val_three, Shape.rowMajor_val_four]
      show (b.val * 64 + ch.val) * 1280 + (z.val * 128 + xq.val) = ((b.val * 64 + ch.val) * 10 + z.val) * 128 + xq.val
      omega)]
  rfl

/-- THE KERNEL'S RUN, READ: every weakly fair execution terminates with the result array at the pooled grid of the
    argument arrays, which end unchanged. -/
theorem run : θ_run defs (onTc (τ := τ) (main (F := Ideal))) ⟨m, fun _ => 0, ρ⟩ fun r => ∀ c : Dev nD,
      r.2.mem ((c : Thread nD τ).loc main_v30)
        = pooled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v30 (Pipeline.mem_restRefs_of main_v30 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Value

end
-- ==== Proof.CellWords.lean ====
/-
  The 32-bit words of a point's cell.  When a point counts, its three coordinates are small naturals, so neither
  zz·128 + xx nor ((b·10 + zz)·128 + xx)·128 + yy wraps around; the dense cell then determines (b, zz, xx, yy), and
  forgetting yy leaves exactly the batch element and the cell zz·128 + xx.  A point that does not count carries an
  out-of-grid word on both sides (1280, resp. 655360), which is no cell of the grid.
-/
import proofs.«430443_j69715909149218_3_alg».proof.Proof.Pool

namespace Cert.Pool

open Idealize.ShloMosaic

/-- A conjunction of one-bit words is 1 exactly when both are. -/
private theorem and_eq_one_iff (a b : BitVec 1) : a &&& b = 1#1 ↔ a = 1#1 ∧ b = 1#1 := by
  revert a b; decide

/-- The one-bit word of a Boolean is 1 exactly when the Boolean is true. -/
private theorem ofBool_eq_one_iff (c : Bool) : BitVec.ofBool c = 1#1 ↔ c = true := by
  cases c <;> decide

/-- A signed 32-bit word lies in [0, n), n below 2^31, exactly when its unsigned value is below n. -/
private theorem range_iff (x : BitVec 32) (n : Nat) (hn : n < 2147483648) :
    ((0#32).sle x = true ∧ x.slt (BitVec.ofNat 32 n) = true) ↔ x.toNat < n := by
  have hx := x.isLt
  simp only [BitVec.sle, BitVec.slt, decide_eq_true_eq, BitVec.toInt_eq_toNat_cond, BitVec.toNat_ofNat]
  have hn' : n % 2 ^ 32 = n := Nat.mod_eq_of_lt (by omega)
  rw [hn']
  constructor
  · rintro ⟨h0, h1⟩
    split at h0 <;> split at h1 <;> simp at h0 h1 <;> omega
  · intro h
    have h1 : 2 * x.toNat < 2 ^ 32 := by omega
    have h2 : 2 * n < 2 ^ 32 := by omega
    simp only [h1, h2, if_true]
    refine ⟨by simp, ?_⟩
    omega

/-- A point counts exactly when its three coordinates, read unsigned, are below 128, 128 and 10. -/
theorem counts_eq_one_iff (xx yy zz : BitVec 32) :
    counts xx yy zz = 1#1 ↔ xx.toNat < 128 ∧ yy.toNat < 128 ∧ zz.toNat < 10 := by
  unfold counts IntOp.andi IntOp.cmpi
  simp only [and_eq_one_iff, ofBool_eq_one_iff]
  have hx := range_iff xx 128 (by omega)
  have hy := range_iff yy 128 (by omega)
  have hz := range_iff zz 10 (by omega)
  constructor
  · rintro ⟨⟨⟨⟨⟨a, b⟩, c⟩, d⟩, e⟩, f⟩
    exact ⟨hx.1 ⟨a, b⟩, hy.1 ⟨c, d⟩, hz.1 ⟨e, f⟩⟩
  · rintro ⟨a, b, c⟩
    exact ⟨⟨⟨⟨hx.2 a, (hy.2 b).1⟩, (hy.2 b).2⟩, (hz.2 c).1⟩, (hz.2 c).2⟩

/-- A point of batch element b' lands, for SOME y, on dense cell ((b·10 + z)·128 + xq)·128 + y exactly when b' = b and
    the point's cell within its batch element is z·128 + xq. -/
theorem denseCell_lands_iff (bw xx yy zz : BitVec 32) (b' b : Fin 4) (hb : bw = BitVec.ofNat 32 b'.val) (z : Fin 10) (xq : Fin 128) :
    (∃ y : Fin 128, (denseCell bw xx yy zz).toInt = ((((b.val * 10 + z.val) * 128 + xq.val) * 128 + y.val : ℕ) : ℤ))
      ↔ (b' = b ∧ cell xx yy zz = BitVec.ofNat 32 (z.val * 128 + xq.val)) := by
  subst hb
  have hb' := b'.isLt
  have hbb := b.isLt
  have hz := z.isLt
  have hxq := xq.isLt
  by_cases hc : counts xx yy zz = 1
  · -- The point counts: no product or sum wraps around, so both words are read off as naturals.
    obtain ⟨hX, hY, hZ⟩ := (counts_eq_one_iff xx yy zz).1 hc
    have hn : (denseCell (BitVec.ofNat 32 b'.val) xx yy zz).toNat
        = ((b'.val * 10 + zz.toNat) * 128 + xx.toNat) * 128 + yy.toNat := by
      unfold denseCell Scalar.select IntOp.addi IntOp.muli
      rw [if_pos hc]
      simp only [BitVec.toNat_add, BitVec.toNat_mul, BitVec.toNat_ofNat]
      omega
    have hd : (denseCell (BitVec.ofNat 32 b'.val) xx yy zz).toInt
        = ((((b'.val * 10 + zz.toNat) * 128 + xx.toNat) * 128 + yy.toNat : ℕ) : ℤ) := by
      rw [BitVec.toInt_eq_toNat_cond, hn, if_pos (by omega)]
    have hcell : (cell xx yy zz).toNat = zz.toNat * 128 + xx.toNat := by
      unfold cell Scalar.select IntOp.addi IntOp.muli
      rw [if_pos hc]
      simp only [BitVec.toNat_add, BitVec.toNat_mul, BitVec.toNat_ofNat]
      omega
    rw [hd]
    constructor
    · rintro ⟨y, hy⟩
      have hyl := y.isLt
      refine ⟨Fin.ext (by omega), BitVec.eq_of_toNat_eq ?_⟩
      rw [hcell, BitVec.toNat_ofNat]
      omega
    · rintro ⟨rfl, h⟩
      have h' := congrArg BitVec.toNat h
      rw [hcell, BitVec.toNat_ofNat] at h'
      exact ⟨⟨yy.toNat, hY⟩, by push_cast; omega⟩
  · -- The point does not count: both words are out of the grid.
    have hd : denseCell (BitVec.ofNat 32 b'.val) xx yy zz = 655360#32 := by
      unfold denseCell Scalar.select
      rw [if_neg hc]
    have hcell : cell xx yy zz = 1280#32 := by
      unfold cell Scalar.select
      rw [if_neg hc]
    have h655 : (655360#32).toInt = 655360 := by decide
    rw [hd, hcell, h655]
    constructor
    · rintro ⟨y, hy⟩
      have hyl := y.isLt
      omega
    · rintro ⟨_, h⟩
      have h' := congrArg BitVec.toNat h
      simp only [BitVec.toNat_ofNat] at h'
      omega

end Cert.Pool
-- ==== Proof.ScatterLand.lean ====
/-
  Where an update of the reference's accumulating scatter lands.  The scatter has one scattered axis (axis 0 of the
  operand, read off the single column of the index array, signed and not clamped) and one window axis (axis 1, copied
  from the update's axis 1): update (p, c) lands on element (n, c) of the operand exactly when the index word of row p,
  read as a signed integer, is n.
-/
import proofs.«430443_j69715909149218_3_alg».proof.ReferenceIdeal
import Idealize.ShloMosaic.Lib.ValueIdx

namespace Cert.ReferenceIdeal.Lands

open Idealize.ShloMosaic Idealize.ShloMosaic.ValueIdx Cert.ReferenceIdeal

section Record

/-- The scatter record with its four attribute lists spelled out, over any proof of its side conditions. -/
private abbrev rec1001 (wf : ScatterDims.WF S655361x64 S675840x1 S675840x64 [1] [0] [0] 1) :
    ScatterDims S655361x64 S675840x1 S675840x64 := ⟨[1], [0], [0], 1, wf⟩

variable (wf : ScatterDims.WF S655361x64 S675840x1 S675840x64 [1] [0] [0] 1)

/-- The only component of the start index is read at row (j 0), column 0 of the index array: the update's scatter axis
    is its axis 0, which reads the index array's axis 0, and the index vector lies along axis 1. -/
private theorem siIdx_eq (j : S675840x64.Idx) (c : Fin (rec1001 wf).scatterDimsToOperandDims.length) :
    (rec1001 wf).siIdx j c = ix2 (⟨(j 0).val, (j 0).isLt⟩ : Fin 675840) (0 : Fin 1) := by
  funext b
  apply Fin.ext
  match b with
  | ⟨0, _⟩ =>
    unfold ScatterDims.siIdx
    simp
    rfl
  | ⟨1, _⟩ =>
    unfold ScatterDims.siIdx
    simp

/-- On operand axis 0 the window starts at the signed index word of row (j 0). -/
private theorem start_zero {w : Nat} (j : S675840x64.Idx) (idx : IVec S675840x1 w) :
    (rec1001 wf).start j idx (0 : Fin S655361x64.rank)
      = (idx (ix2 (⟨(j 0).val, (j 0).isLt⟩ : Fin 675840) (0 : Fin 1))).toInt := by
  unfold ScatterDims.start
  rw [dif_pos (List.mem_singleton.2 rfl), siIdx_eq]

/-- Operand axis 1 is not a scattered axis: the window starts at 0 there. -/
private theorem start_one {w : Nat} (j : S675840x64.Idx) (idx : IVec S675840x1 w) :
    (rec1001 wf).start j idx (1 : Fin S655361x64.rank) = 0 := by
  unfold ScatterDims.start
  rw [dif_neg (by simp)]

/-- Operand axis 0 is an inserted axis: the window coordinate is 0 there. -/
private theorem window_zero (j : S675840x64.Idx) : (rec1001 wf).window j (0 : Fin S655361x64.rank) = 0 := by
  unfold ScatterDims.window
  have hk : (rec1001 wf).sKept = [1] := rfl
  rw [dif_neg (by rw [hk]; simp)]

/-- Operand axis 1 carries the update's window axis 1. -/
private theorem window_one (j : S675840x64.Idx) : (rec1001 wf).window j (1 : Fin S655361x64.rank) = (j 1).val := by
  unfold ScatterDims.window
  have hk : (rec1001 wf).sKept = [1] := rfl
  rw [dif_pos (by rw [hk]; simp)]
  rfl

/-- The landing rule for the spelled-out record. -/
private theorem lands_iff_rec (j : S675840x64.Idx) (idx : IVec S675840x1 32) (i' : S655361x64.Idx) :
    (rec1001 wf).resultIdx? j idx = some i'
      ↔ ((idx (ix2 (⟨(j 0).val, (j 0).isLt⟩ : Fin 675840) (0 : Fin 1))).toInt = ((i' 0).val : ℤ) ∧ (j 1).val = (i' 1).val) := by
  have hi0 := idx2_lt0 i'
  have hi1 := idx2_lt1 i'
  have hj1 := idx2_lt1 j
  unfold ScatterDims.resultIdx?
  split
  · rename_i h
    have h0 := h 0
    have h1 := h 1
    rw [start_zero, window_zero] at h0
    rw [start_one, window_one] at h1
    rw [Option.some.injEq]
    constructor
    · intro he
      have e0 := congrArg (fun f => (f 0).val) he
      have e1 := congrArg (fun f => (f 1).val) he
      simp only [start_zero, window_zero, start_one, window_one] at e0 e1
      omega
    · rintro ⟨a, b⟩
      funext x
      apply Fin.ext
      match x with
      | ⟨0, _⟩ =>
        show ((rec1001 wf).start j idx 0 + ((rec1001 wf).window j 0 : ℕ)).toNat = (i' 0).val
        rw [start_zero, window_zero]
        omega
      | ⟨1, _⟩ =>
        show ((rec1001 wf).start j idx 1 + ((rec1001 wf).window j 1 : ℕ)).toNat = (i' 1).val
        rw [start_one, window_one]
        omega
  · rename_i h
    constructor
    · intro he
      cases he
    · rintro ⟨a, b⟩
      exfalso
      apply h
      intro x
      match x with
      | ⟨0, _⟩ =>
        show 0 ≤ (rec1001 wf).start j idx 0 + ((rec1001 wf).window j 0 : ℕ)
          ∧ (rec1001 wf).start j idx 0 + ((rec1001 wf).window j 0 : ℕ) < ((655361 : ℕ) : ℤ)
        rw [start_zero, window_zero]
        omega
      | ⟨1, _⟩ =>
        show 0 ≤ (rec1001 wf).start j idx 1 + ((rec1001 wf).window j 1 : ℕ)
          ∧ (rec1001 wf).start j idx 1 + ((rec1001 wf).window j 1 : ℕ) < ((64 : ℕ) : ℤ)
        rw [start_one, window_one]
        omega

end Record

theorem lands_iff [Cert.ReferenceIdeal.Facts] (j : S675840x64.Idx) (idx : IVec S675840x1 32) (i' : S655361x64.Idx) :
    scatter_S655361x64_S675840x1_S675840x64_1_0_0_1.resultIdx? j idx = some i'
      ↔ ((idx (ix2 (⟨(j 0).val, (j 0).isLt⟩ : Fin 675840) (0 : Fin 1))).toInt = ((i' 0).val : ℤ) ∧ (j 1).val = (i' 1).val) := by
  exact lands_iff_rec Facts₀.scatter_S655361x64_S675840x1_S675840x64_1_0_0_1_wf j idx i'

end Cert.ReferenceIdeal.Lands
-- ==== Proof.PointSums.lean ====
/-
  Two rearrangements of finite sums, used to read a scatter into a dense grid followed by a sum over one grid axis
  as a single sum over the points.

  (1) The points are numbered flat, p < 675840, and every p is b'·168960 + t·2816 + k for exactly one batch element
      b' < 4, depth layer t < 60 and pixel k < 2816; a sum over p is the triple sum over (b', t, k).
  (2) If n is injective then at most one y has a = n y, so the sum over y of (u if a = n y, else 0) is u when some y
      has a = n y and 0 otherwise.
-/
import proofs.«430443_j69715909149218_3_alg».proof.Proof.Pool

noncomputable section

open scoped BigOperators

namespace Cert.Pool

/-- The flat number of point (b', t, k), and back: p ↦ (p / 168960, p / 2816 mod 60, p mod 2816). -/
def pointEquiv : Fin 4 × Fin 60 × Fin 2816 ≃ Fin 675840 where
  toFun q := ⟨q.1.val * 168960 + q.2.1.val * 2816 + q.2.2.val, by
    have h1 := q.1.isLt; have h2 := q.2.1.isLt; have h3 := q.2.2.isLt; omega⟩
  invFun p := (⟨p.val / 168960, by have := p.isLt; omega⟩, ⟨p.val / 2816 % 60, by omega⟩, ⟨p.val % 2816, by omega⟩)
  left_inv q := by
    obtain ⟨a, b, c⟩ := q
    have h1 := a.isLt; have h2 := b.isLt; have h3 := c.isLt
    refine Prod.ext (Fin.ext ?_) (Prod.ext (Fin.ext ?_) (Fin.ext ?_))
    · show (a.val * 168960 + b.val * 2816 + c.val) / 168960 = a.val; omega
    · show (a.val * 168960 + b.val * 2816 + c.val) / 2816 % 60 = b.val; omega
    · show (a.val * 168960 + b.val * 2816 + c.val) % 2816 = c.val; omega
  right_inv p := by
    refine Fin.ext ?_
    have := p.isLt
    show p.val / 168960 * 168960 + p.val / 2816 % 60 * 2816 + p.val % 2816 = p.val
    omega

/-- The flat number of point (b', t, k) is b'·168960 + t·2816 + k. -/
theorem pointEquiv_val (b' : Fin 4) (t : Fin 60) (k : Fin 2816) :
    (pointEquiv (b', t, k)).val = b'.val * 168960 + t.val * 2816 + k.val := rfl

/-- A sum over the flat point numbers is the triple sum over batch element, depth layer and pixel. -/
theorem sum_points {M : Type*} [AddCommMonoid M] (F : Fin 675840 → M) :
    ∑ p, F p = ∑ b' : Fin 4, ∑ t : Fin 60, ∑ k : Fin 2816, F (pointEquiv (b', t, k)) := by
  rw [← Equiv.sum_comp pointEquiv F, Fintype.sum_prod_type]
  refine Finset.sum_congr rfl fun b' _ => ?_
  rw [Fintype.sum_prod_type]

/-- Disjoint fibres: for injective n, summing (u if a = n y, else 0) over y gives u exactly when a is a value of n. -/
theorem sum_fibre {M : Type*} [AddCommMonoid M] {ι β : Type*} [Fintype ι] [DecidableEq β] (n : ι → β)
    (hn : Function.Injective n) (a : β) (u : M) [Decidable (∃ y, a = n y)] :
    ∑ y, (if a = n y then u else 0) = if (∃ y, a = n y) then u else 0 := by
  classical
  split_ifs with h
  · obtain ⟨y0, rfl⟩ := h
    rw [Finset.sum_eq_single y0]
    · rw [if_pos rfl]
    · intro y _ hy
      rw [if_neg]
      intro h
      exact hy (hn h.symm)
    · intro h
      exact absurd (Finset.mem_univ _) h
  · refine Finset.sum_eq_zero fun y _ => ?_
    rw [if_neg]
    intro hy
    exact h ⟨y, hy⟩

end Cert.Pool

end
-- ==== Proof.RefPoints.lean ====
/-
  The reference's stages read at a point.

  The reference numbers the points flat: point p < 675840 is (b', t, h, w) with p = ((b'·60 + t)·32 + h)·88 + w.
  Three readings are proved here.
  (1) The feature row it scatters for point p, at channel c, is x[b', c, h, w].
  (2) The index word it scatters point p to is the point's dense cell: the word built from the batch number
      p / 168960 and the point's three coordinates f[b', t, h, w, 0..2] by the six range tests, the multiply-add
      chain and the final select.
  (3) Its accumulating scatter starts from the zero array, so element (n, c) of the scatter's result is the sum, over
      the points p whose index word read as a signed integer is n, of the feature x-row of p at channel c; and the
      result at (b, c, z, xq) is the sum over the grid column y of the scatter's element at the dense cell number
      ((b·10 + z)·128 + xq)·128 + y and channel c (the slice only drops the dummy row 655360, which no such cell is).
-/
import proofs.«430443_j69715909149218_3_alg».proof.Proof.Pool
import proofs.«430443_j69715909149218_3_alg».proof.Proof.ScatterLand
import proofs.«430443_j69715909149218_3_alg».proof.Proof.Gen.ReferenceIdeal.Run
import proofs.«430443_j69715909149218_3_alg».proof.Proof.Gen.ReferenceIdeal.Read

noncomputable section

open scoped BigOperators

namespace Cert.ReferenceIdeal.Pooled

open Idealize.ShloMosaic Idealize.ShloMosaic.ValueIdx Cert.ReferenceIdeal Cert.ReferenceIdeal.Read

/-- Batch element, depth layer, row and column of the flat point number p. -/
def pb (p : Fin 675840) : Fin 4 := ⟨p.val / 168960, by have := p.isLt; omega⟩
def pt (p : Fin 675840) : Fin 60 := ⟨p.val / 2816 % 60, by omega⟩
def ph (p : Fin 675840) : Fin 32 := ⟨p.val / 88 % 32, by omega⟩
def pw (p : Fin 675840) : Fin 88 := ⟨p.val % 88, by omega⟩

/-! ## (1) The scattered feature row -/

/-- The update row of point p at channel c is x[b', c, h, w]: the transpose moves the channel last, the two broadcasts
    repeat the image over the 60 depth layers, and the reshape flattens (b', t, h, w). -/
theorem v3_point (x : (⟨S4x64x32x88, .f32⟩ : BufTy).Contents (Elt Ideal)) (p : Fin 675840) (c : Fin 64) :
    val_main_v3 (F := Ideal) x (ix2 p c) = x (ix4 (pb p) c (ph p) (pw p)) := by
  rw [val_main_v3_apply, val_main_v2_apply, val_main_v1_apply, val_main_v0_apply]
  congr 1
  funext a
  have hp := p.isLt
  have hc := c.isLt
  match a with
  | ⟨0, _⟩ => exact Fin.ext (by show (p.val * 64 + c.val) / 10813440 = p.val / 168960; omega)
  | ⟨1, _⟩ => exact Fin.ext (by show (p.val * 64 + c.val) % 64 = c.val; omega)
  | ⟨2, _⟩ => exact Fin.ext (by show (p.val * 64 + c.val) / 5632 % 32 = p.val / 88 % 32; omega)
  | ⟨3, _⟩ => exact Fin.ext (by show (p.val * 64 + c.val) / 64 % 88 = p.val % 88; omega)

/-! ## (2) The index word of a point -/

section Word

variable (f : (⟨S4x60x32x88x3, .i32⟩ : BufTy).Contents (Elt Ideal)) (p : Fin 675840)

/-- The first coordinate column at point p. -/
theorem v6_point : val_main_v6 (F := Ideal) f (ix1 p) = f (ix5 (pb p) (pt p) (ph p) (pw p) (0 : Fin 3)) := by
  rw [val_main_v6_apply, val_main_v5_apply, val_main_v4_apply]
  congr 1
  funext a
  have hp := p.isLt
  match a with
  | ⟨0, _⟩ => exact Fin.ext (by show (p.val / 1 * 3 + 0) / 506880 = p.val / 168960; omega)
  | ⟨1, _⟩ => exact Fin.ext (by show (p.val / 1 * 3 + 0) / 8448 % 60 = p.val / 2816 % 60; omega)
  | ⟨2, _⟩ => exact Fin.ext (by show (p.val / 1 * 3 + 0) / 264 % 32 = p.val / 88 % 32; omega)
  | ⟨3, _⟩ => exact Fin.ext (by show (p.val / 1 * 3 + 0) / 3 % 88 = p.val % 88; omega)
  | ⟨4, _⟩ => exact Fin.ext (by show (p.val / 1 * 3 + 0) % 3 = 0; omega)

/-- The second coordinate column at point p. -/
theorem v8_point : val_main_v8 (F := Ideal) f (ix1 p) = f (ix5 (pb p) (pt p) (ph p) (pw p) (1 : Fin 3)) := by
  rw [val_main_v8_apply, val_main_v7_apply, val_main_v4_apply]
  congr 1
  funext a
  have hp := p.isLt
  match a with
  | ⟨0, _⟩ => exact Fin.ext (by show (p.val / 1 * 3 + (1 + 0)) / 506880 = p.val / 168960; omega)
  | ⟨1, _⟩ => exact Fin.ext (by show (p.val / 1 * 3 + (1 + 0)) / 8448 % 60 = p.val / 2816 % 60; omega)
  | ⟨2, _⟩ => exact Fin.ext (by show (p.val / 1 * 3 + (1 + 0)) / 264 % 32 = p.val / 88 % 32; omega)
  | ⟨3, _⟩ => exact Fin.ext (by show (p.val / 1 * 3 + (1 + 0)) / 3 % 88 = p.val % 88; omega)
  | ⟨4, _⟩ => exact Fin.ext (by show (p.val / 1 * 3 + (1 + 0)) % 3 = 1; omega)

/-- The third coordinate column at point p. -/
theorem v10_point : val_main_v10 (F := Ideal) f (ix1 p) = f (ix5 (pb p) (pt p) (ph p) (pw p) (2 : Fin 3)) := by
  rw [val_main_v10_apply, val_main_v9_apply, val_main_v4_apply]
  congr 1
  funext a
  have hp := p.isLt
  match a with
  | ⟨0, _⟩ => exact Fin.ext (by show (p.val / 1 * 3 + (2 + 0)) / 506880 = p.val / 168960; omega)
  | ⟨1, _⟩ => exact Fin.ext (by show (p.val / 1 * 3 + (2 + 0)) / 8448 % 60 = p.val / 2816 % 60; omega)
  | ⟨2, _⟩ => exact Fin.ext (by show (p.val / 1 * 3 + (2 + 0)) / 264 % 32 = p.val / 88 % 32; omega)
  | ⟨3, _⟩ => exact Fin.ext (by show (p.val / 1 * 3 + (2 + 0)) / 3 % 88 = p.val % 88; omega)
  | ⟨4, _⟩ => exact Fin.ext (by show (p.val / 1 * 3 + (2 + 0)) % 3 = 2; omega)

/-- The batch-number column at point p: the word of p / 168960. -/
theorem v13_point : val_main_v13 (F := Ideal) (ix1 p) = BitVec.ofNat 32 (p.val / 168960) := by
  rw [val_main_v13_apply, val_main_v12_apply, val_main_v11_apply]

/-- THE INDEX WORD of point p is its dense cell. -/
theorem v40_point : val_main_v40 (F := Ideal) f (ix1 p) = Cert.Pool.denseCell (BitVec.ofNat 32 (p.val / 168960))
      (f (ix5 (pb p) (pt p) (ph p) (pw p) (0 : Fin 3))) (f (ix5 (pb p) (pt p) (ph p) (pw p) (1 : Fin 3)))
      (f (ix5 (pb p) (pt p) (ph p) (pw p) (2 : Fin 3))) := by
  rw [val_main_v40_apply, val_main_v30_apply, val_main_v27_apply, val_main_v24_apply, val_main_v21_apply,
    val_main_v18_apply, val_main_v15_apply, val_main_v17_apply, val_main_v20_apply, val_main_v23_apply,
    val_main_v26_apply, val_main_v29_apply, val_main_v39_apply, val_main_v38_apply, val_main_v36_apply,
    val_main_v35_apply, val_main_v33_apply, val_main_v32_apply,
    val_main_v14_apply, val_main_c_apply, val_main_v16_apply, val_main_c_0_apply, val_main_v19_apply, val_main_c_1_apply,
    val_main_v22_apply, val_main_c_2_apply, val_main_v25_apply, val_main_c_3_apply, val_main_v28_apply, val_main_c_4_apply,
    val_main_v31_apply, val_main_c_5_apply, val_main_v34_apply, val_main_c_6_apply, val_main_v37_apply, val_main_c_7_apply,
    val_main_call0_v1_apply, val_main_call0_v0_apply, val_main_c_8_apply,
    v6_point, v8_point, v10_point, v13_point]
  rfl

end Word

/-! ## (3) The scatter and the sum over the grid column -/

/-- An accumulating float scatter at an element, over the extended reals: the operand's element plus the sum of the
    updates that land on it. -/
theorem scatterAdd_apply {s si su : Shape} {w : Nat} (d : ScatterDims s si su) (v : FVec Ideal s .f32) (idx : IVec si w)
    (upd : FVec Ideal su .f32) (i : s.Idx) :
    Host.scatterAdd d v idx upd i = v i + ∑ j ∈ Finset.univ.filter (fun j => d.resultIdx? j idx = some i), upd j := rfl

variable [Cert.ReferenceIdeal.Facts]

/-- Element (n, c) of the scatter's result: the sum over the points whose index word, read signed, is n, of the
    point's feature row at channel c.  Update (p, c') lands on (n, c) exactly when c' = c and the index word of p is
    n, so the sum over the updates (p, c') collapses to a sum over p. -/
theorem v43_apply (x : (⟨S4x64x32x88, .f32⟩ : BufTy).Contents (Elt Ideal)) (f : (⟨S4x60x32x88x3, .i32⟩ : BufTy).Contents (Elt Ideal))
    (n : Fin 655361) (c : Fin 64) :
    val_main_v43 (F := Ideal) x f (ix2 n c)
      = ∑ p : Fin 675840, if (val_main_v40 (F := Ideal) f (ix1 p)).toInt = (n.val : ℤ) then val_main_v3 (F := Ideal) x (ix2 p c) else 0 := by
  unfold val_main_v43
  rw [scatterAdd_apply, val_main_v41_apply, val_main_cst_apply, Ideal.ofBits_def, Ideal.ofBits_zero_f32, zero_add,
    Finset.sum_filter]
  simp only [Lands.lands_iff]
  rw [sum_idx2]
  refine Finset.sum_congr rfl fun p _ => ?_
  have h42 : val_main_v42 (F := Ideal) f (ix2 p (0 : Fin 1)) = val_main_v40 (F := Ideal) f (ix1 p) := by
    rw [val_main_v42_apply]
    congr 1
    funext a
    match a with
    | ⟨0, _⟩ => rfl
  rw [Finset.sum_eq_single c]
  · show (if ((val_main_v42 (F := Ideal) f (ix2 p (0 : Fin 1))).toInt = (n.val : ℤ) ∧ c.val = c.val) then
        val_main_v3 (F := Ideal) x (ix2 p c) else 0) = _
    rw [h42]
    by_cases hA : (val_main_v40 (F := Ideal) f (ix1 p)).toInt = (n.val : ℤ)
    · rw [if_pos ⟨hA, rfl⟩, if_pos hA]
    · rw [if_neg (fun h => hA h.1), if_neg hA]
  · intro b _ hb
    rw [if_neg]
    intro h
    exact hb (Fin.ext h.2)
  · intro h
    exact absurd (Finset.mem_univ _) h

/-- The dense cell number ((b·10 + z)·128 + xq)·128 + y of batch element b, height z, grid row xq and grid column y. -/
def cellNo (b : Fin 4) (z : Fin 10) (xq : Fin 128) (y : Fin 128) : Fin 655361 :=
  ⟨((b.val * 10 + z.val) * 128 + xq.val) * 128 + y.val, by
    have h0 := b.isLt; have h2 := z.isLt; have h3 := xq.isLt; have hy := y.isLt; omega⟩

/-- The result at i = (b, c, z, xq): the sum over the grid column y of the scatter's element (cell number, c). -/
theorem v47_cells (x : (⟨S4x64x32x88, .f32⟩ : BufTy).Contents (Elt Ideal)) (f : (⟨S4x60x32x88x3, .i32⟩ : BufTy).Contents (Elt Ideal))
    (i : S4x64x10x128.Idx) :
    val_main_v47 (F := Ideal) x f i = ∑ y : Fin 128, val_main_v43 (F := Ideal) x f (ix2 (cellNo (i 0) (i 2) (i 3) y) (i 1)) := by
  rw [val_main_v47_apply, val_main_v46_apply, val_main_cst_9_apply, Ideal.ofBits_def, Ideal.ofBits_zero_f32, zero_add]
  refine Finset.sum_congr rfl fun y _ => ?_
  rw [val_main_v45_apply, val_main_v44_apply]
  congr 1
  funext a
  have h0 : (i 0).val < 4 := (i 0).isLt
  have h1 : (i 1).val < 64 := (i 1).isLt
  have h2 : (i 2).val < 10 := (i 2).isLt
  have h3 : (i 3).val < 128 := (i 3).isLt
  have hy := y.isLt
  match a with
  | ⟨0, _⟩ => exact Fin.ext (by show (((((i 0).val * 10 + (i 2).val) * 128 + (i 3).val) * 128 + y.val) * 64 + (i 1).val) / 64 = (((i 0).val * 10 + (i 2).val) * 128 + (i 3).val) * 128 + y.val; omega)
  | ⟨1, _⟩ => exact Fin.ext (by show (((((i 0).val * 10 + (i 2).val) * 128 + (i 3).val) * 128 + y.val) * 64 + (i 1).val) % 64 = (i 1).val; omega)

end Cert.ReferenceIdeal.Pooled

end
-- ==== Proof.RefPooled.lean ====
/-
  The reference computes the pooled grid.  Its scatter adds each point's feature column into the dense (b, z, x, y)
  grid at the point's dense cell (points that do not count go to a dummy row that is sliced away), and the sum over y
  that follows collects, for each (b, z, x), the columns of all points of batch element b that count and lie in cell
  z·128 + x: the y-fibres are disjoint, so the double sum is one sum over the points.

  In steps, at result position i = (b, c, z, xq):
    result = ∑ y, ∑ p, [index word of p, read signed, = cell number (b, z, xq, y)] · (feature row of p at c)
           = ∑ p, ∑ y, …                                         (the two finite sums commute)
           = ∑ p, [∃ y, index word of p = cell number (b, z, xq, y)] · …   (the cell numbers are distinct in y)
           = ∑ p, [batch element of p = b ∧ cell of p = z·128 + xq] · x[b', c, h, w]
           = ∑ b', ∑ t, ∑ k, [b' = b ∧ cell of (b', t, k) = z·128 + xq] · x[b', c, row k, col k]
           = ∑ t, ∑ k, [cell of (b, t, k) = z·128 + xq] · x[b, c, row k, col k],
  which is the pooled grid at i, since u · 1 = u and u · 0 = 0.
-/
import proofs.«430443_j69715909149218_3_alg».proof.Proof.Pool
import proofs.«430443_j69715909149218_3_alg».proof.Proof.CellWords
import proofs.«430443_j69715909149218_3_alg».proof.Proof.ScatterLand
import proofs.«430443_j69715909149218_3_alg».proof.Proof.PointSums
import proofs.«430443_j69715909149218_3_alg».proof.Proof.RefPoints
import proofs.«430443_j69715909149218_3_alg».proof.Proof.Gen.ReferenceIdeal.Run
import proofs.«430443_j69715909149218_3_alg».proof.Proof.Gen.ReferenceIdeal.Read

noncomputable section

open scoped BigOperators

namespace Cert.ReferenceIdeal.Pooled

open Idealize.ShloMosaic Idealize.ShloMosaic.ValueIdx Cert.ReferenceIdeal Cert.ReferenceIdeal.Read

/-! ## The coordinates of point (b', t, k) -/

section Coordinates

variable (b' : Fin 4) (t : Fin 60) (k : Fin 2816)

theorem pb_point : pb (Cert.Pool.pointEquiv (b', t, k)) = b' :=
  Fin.ext (by have h1 := b'.isLt; have h2 := t.isLt; have h3 := k.isLt; show (b'.val * 168960 + t.val * 2816 + k.val) / 168960 = b'.val; omega)

theorem pt_point : pt (Cert.Pool.pointEquiv (b', t, k)) = t :=
  Fin.ext (by have h1 := b'.isLt; have h2 := t.isLt; have h3 := k.isLt; show (b'.val * 168960 + t.val * 2816 + k.val) / 2816 % 60 = t.val; omega)

theorem ph_point : ph (Cert.Pool.pointEquiv (b', t, k)) = Cert.Pool.rowOf k :=
  Fin.ext (by have h1 := b'.isLt; have h2 := t.isLt; have h3 := k.isLt; show (b'.val * 168960 + t.val * 2816 + k.val) / 88 % 32 = k.val / 88; omega)

theorem pw_point : pw (Cert.Pool.pointEquiv (b', t, k)) = Cert.Pool.colOf k :=
  Fin.ext (by have h1 := b'.isLt; have h2 := t.isLt; have h3 := k.isLt; show (b'.val * 168960 + t.val * 2816 + k.val) % 88 = k.val % 88; omega)

end Coordinates

/-! ## The y-fibres -/

/-- For one (b, z, xq) the cell numbers of distinct grid columns y are distinct. -/
theorem cellNo_injective (b : Fin 4) (z : Fin 10) (xq : Fin 128) :
    Function.Injective (fun y : Fin 128 => ((cellNo b z xq y).val : ℤ)) := by
  intro y y' h
  have h' : ((b.val * 10 + z.val) * 128 + xq.val) * 128 + y.val = ((b.val * 10 + z.val) * 128 + xq.val) * 128 + y'.val :=
    Int.ofNat_inj.mp h
  exact Fin.ext (by omega)

/-- Point p's contributions to the 128 grid columns of (b, z, xq) add up to its feature value when p belongs to batch
    element b and lies in cell z·128 + xq, and to 0 otherwise. -/
theorem point_fibre [Cert.ReferenceIdeal.Facts] (x : (⟨S4x64x32x88, .f32⟩ : BufTy).Contents (Elt Ideal))
    (f : (⟨S4x60x32x88x3, .i32⟩ : BufTy).Contents (Elt Ideal))
    (b : Fin 4) (c : Fin 64) (z : Fin 10) (xq : Fin 128) (p : Fin 675840) :
    ∑ y : Fin 128, (if (val_main_v40 (F := Ideal) f (ix1 p)).toInt = ((cellNo b z xq y).val : ℤ) then
        val_main_v3 (F := Ideal) x (ix2 p c) else 0)
      = if (pb p = b ∧ Cert.Pool.cell (f (ix5 (pb p) (pt p) (ph p) (pw p) (0 : Fin 3)))
            (f (ix5 (pb p) (pt p) (ph p) (pw p) (1 : Fin 3))) (f (ix5 (pb p) (pt p) (ph p) (pw p) (2 : Fin 3)))
              = BitVec.ofNat 32 (z.val * 128 + xq.val)) then x (ix4 (pb p) c (ph p) (pw p)) else 0 := by
  rw [Cert.Pool.sum_fibre (fun y : Fin 128 => ((cellNo b z xq y).val : ℤ)) (cellNo_injective b z xq), v40_point, v3_point]
  exact if_congr (Cert.Pool.denseCell_lands_iff _ _ _ _ (pb p) b rfl z xq) rfl rfl

/-! ## The result at (b, c, z, xq) -/

/-- The reference's result at (b, c, z, xq) as the sum over the grid column of the scatter's elements. -/
theorem v47_at (x : (⟨S4x64x32x88, .f32⟩ : BufTy).Contents (Elt Ideal)) (f : (⟨S4x60x32x88x3, .i32⟩ : BufTy).Contents (Elt Ideal))
    (b : Fin 4) (c : Fin 64) (z : Fin 10) (xq : Fin 128) :
    val_main_v47 (F := Ideal) x f (ix4 b c z xq) = ∑ y : Fin 128, val_main_v43 (F := Ideal) x f (ix2 (cellNo b z xq y) c) :=
  v47_cells x f (ix4 b c z xq)

/-- The pooled grid at (b, c, z, xq), with the cell of a point written out. -/
theorem pooled_at (x : Cert.Pool.SX.Idx → EReal) (f : Cert.Pool.SF.Idx → BitVec 32)
    (b : Fin 4) (c : Fin 64) (z : Fin 10) (xq : Fin 128) :
    Cert.Pool.pooled x f (ix4 b c z xq) = ∑ t : Fin 60, ∑ k : Fin 2816,
      x (ix4 b c (Cert.Pool.rowOf k) (Cert.Pool.colOf k))
        * (if Cert.Pool.cell (f (ix5 b t (Cert.Pool.rowOf k) (Cert.Pool.colOf k) (0 : Fin 3)))
              (f (ix5 b t (Cert.Pool.rowOf k) (Cert.Pool.colOf k) (1 : Fin 3)))
              (f (ix5 b t (Cert.Pool.rowOf k) (Cert.Pool.colOf k) (2 : Fin 3)))
            = BitVec.ofNat 32 (z.val * 128 + xq.val) then (1 : EReal) else 0) := rfl

theorem ref_pooled_at [Cert.ReferenceIdeal.Facts] (x : (⟨S4x64x32x88, .f32⟩ : BufTy).Contents (Elt Ideal))
    (f : (⟨S4x60x32x88x3, .i32⟩ : BufTy).Contents (Elt Ideal)) (b : Fin 4) (c : Fin 64) (z : Fin 10) (xq : Fin 128) :
    val_main_v47 (F := Ideal) x f (ix4 b c z xq) = Cert.Pool.pooled x f (ix4 b c z xq) := by
  rw [v47_at, pooled_at, Finset.sum_congr rfl (fun y _ => v43_apply x f (cellNo b z xq y) c), Finset.sum_comm,
    Finset.sum_congr rfl (fun p _ => point_fibre x f b c z xq p), Cert.Pool.sum_points, Finset.sum_eq_single b]
  · refine Finset.sum_congr rfl fun t _ => Finset.sum_congr rfl fun k _ => ?_
    rw [pb_point, pt_point, ph_point, pw_point]
    by_cases hQ : Cert.Pool.cell (f (ix5 b t (Cert.Pool.rowOf k) (Cert.Pool.colOf k) (0 : Fin 3)))
        (f (ix5 b t (Cert.Pool.rowOf k) (Cert.Pool.colOf k) (1 : Fin 3)))
        (f (ix5 b t (Cert.Pool.rowOf k) (Cert.Pool.colOf k) (2 : Fin 3)))
          = BitVec.ofNat 32 (z.val * 128 + xq.val)
    · rw [if_pos ⟨rfl, hQ⟩, if_pos hQ, mul_one]
    · rw [if_neg (fun h => hQ h.2), if_neg hQ, mul_zero]
  · intro b' _ hb'
    refine Finset.sum_eq_zero fun t _ => Finset.sum_eq_zero fun k _ => ?_
    rw [pb_point, if_neg (fun h => hb' h.1)]
  · intro h
    exact absurd (Finset.mem_univ _) h

theorem ref_pooled [Cert.ReferenceIdeal.Facts] (x : (⟨S4x64x32x88, .f32⟩ : BufTy).Contents (Elt Ideal))
    (f : (⟨S4x60x32x88x3, .i32⟩ : BufTy).Contents (Elt Ideal)) :
    Cert.ReferenceIdeal.Read.val_main_v47 (F := Ideal) x f = Cert.Pool.pooled x f := by
  funext i
  rw [eq_ix4 i]
  exact ref_pooled_at x f (i 0) (i 1) (i 2) (i 3)

end Cert.ReferenceIdeal.Pooled

end
-- ==== Proof.lean ====
/-
  The certificate: a camera-to-grid pooling kernel against its scatter-and-sum reference.

  Both programs compute the POOLED GRID (Proof/Pool.lean): at (b, c, z, x), the sum of the features x[b, c, h, w] over
  the points (t, h, w) of batch element b whose three integer coordinates are in range and whose cell zz·128 + xx is
  z·128 + x.  The kernel gets there by multiplying, depth layer by depth layer, the batch element's 64 × 2816 feature
  matrix with a 2816 × 1280 matrix of zeros and ones (1 where pixel k's cell is v) and accumulating the 60 products in
  one output block (Proof/LayerSum.lean, Proof/RunningSum.lean, Proof/KernelValue.lean).  The reference scatters every
  point's feature column into a dense (b, z, x, y) grid, points out of range into a dummy row it then drops, and sums
  the grid over y (Proof/RefPooled.lean): the y-fibres are disjoint, so that is one sum over the same points.  Over the
  extended reals the two sums agree term by term after re-indexing; no finiteness of the features is used, only that +
  is commutative and associative and that u·1 = u and u·0 = 0.  The change of float format in the kernel is the identity
  there, and the idealization rewrote nothing.
-/
import proofs.«430443_j69715909149218_3_alg».proof.Defs
import proofs.«430443_j69715909149218_3_alg».proof.Proof.Gen.Kernel
import proofs.«430443_j69715909149218_3_alg».proof.Proof.Gen.Kernel.Skeleton
import proofs.«430443_j69715909149218_3_alg».proof.Proof.Gen.Kernel.Launch
import proofs.«430443_j69715909149218_3_alg».proof.Proof.Gen.Kernel.Points
import proofs.«430443_j69715909149218_3_alg».proof.Proof.Gen.Kernel.Frame
import proofs.«430443_j69715909149218_3_alg».proof.Proof.Gen.KernelIdeal
import proofs.«430443_j69715909149218_3_alg».proof.Proof.Gen.KernelIdeal.Skeleton
import proofs.«430443_j69715909149218_3_alg».proof.Proof.Gen.KernelIdeal.Launch
import proofs.«430443_j69715909149218_3_alg».proof.Proof.Gen.KernelIdeal.Points
import proofs.«430443_j69715909149218_3_alg».proof.Proof.Gen.KernelIdeal.Frame
import proofs.«430443_j69715909149218_3_alg».proof.Proof.Gen.ReferenceIdeal
import proofs.«430443_j69715909149218_3_alg».proof.Proof.Gen.ReferenceIdeal.Run
import proofs.«430443_j69715909149218_3_alg».proof.Proof.Gen.ReferenceIdeal.Read
import proofs.«430443_j69715909149218_3_alg».proof.Proof.Gen.Pre_finite_inputs
import proofs.«430443_j69715909149218_3_alg».proof.Proof.KernelValue
import proofs.«430443_j69715909149218_3_alg».proof.Proof.RefPooled
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the two arguments both programs end with the pooled grid of those arguments. -/
theorem algebraic : Cert.algebraic_KernelIdeal_ReferenceIdeal := by
  intro m ρ m' ρ' _ hagree
  refine ⟨fun c => Cert.Pool.pooled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.ReferenceIdeal.Pooled.ref_pooled, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
